-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000x3 : Shape := ⟨2, ![100000, 3]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_c_19 : IVec S_ 1 := constantI S_ 1 1#1
  let main_v53 : IVec S_ 1 := (fun x v => Host.reduce IntOp.andi x v reducesTo_S1600000_S_d0 h_S_) main_v52 main_c_19
  let main_v54 : IVec S_ 1 := andi main_v48 main_v53
  let main_v55 : IVec S1x1600000 32 := (extractStridedSlice S1x1600000 ![1, 0] · slices_S2x1600000_S1x1600000_1_0) main_arg1
  let main_v56 : IVec S1600000 32 := shapeCast S1600000 main_v55 shapeCasts_S1x1600000_S1600000
  let main_c_20 : IVec S_ 32 := constantI S_ 32 100000#32
  let main_v57 : IVec S1600000 32 := broadcastInDim S1600000 ![] bcast_S_S1600000 main_c_20
  let main_v58 : IVec S1600000 1 := cmpi .slt main_v56 main_v57
  let main_c_21 : IVec S_ 1 := constantI S_ 1 1#1
  let main_v59 : IVec S_ 1 := (fun x v => Host.reduce IntOp.andi x v reducesTo_S1600000_S_d0 h_S_) main_v58 main_c_21
  let main_v60 : IVec S_ 1 := andi main_v54 main_v59
  main_v60

def fn_part2 {F : FTy → Type} [FloatOps F] (main_arg1 : IVec S2x1600000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x1600000 32 := (extractStridedSlice S1x1600000 ![1, 0] · slices_S2x1600000_S1x1600000_1_0) main_arg1
  let main_v50 : IVec S1600000 32 := shapeCast S1600000 main_v49 shapeCasts_S1x1600000_S1600000
  let main_c_18 : IVec S_ 32 := constantI S_ 32 4294867296#32
  fn_part3 (F := F) main_arg1 main_v48 main_v50 main_c_18

def fn_part1 {F : FTy → Type} [FloatOps F] (main_arg1 : IVec S2x1600000 32) (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x64 .f32) (main_arg1 : IVec S2x1600000 32) (main_arg2 : FVec F S100000x3 .f32) (main_arg3 : FVec F S131x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S131x64 .f32 := Host.absf main_arg3
  let main_cst_2 : FVec F S_ .f32 := constant S_ .f32 0x7F800000#32
  let main_v10 : FVec F S131x64 .f32 := broadcastInDim S131x64 ![] bcast_S_S131x64 main_cst_2
  let main_v11 : IVec S131x64 1 := cmpf .olt main_v9 main_v10
  let main_c_3 : IVec S_ 1 := constantI S_ 1 1#1
  let main_v12 : IVec S_ 1 := (fun x v => Host.reduce IntOp.andi x v reducesTo_S131x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000x3 : Shape := ⟨2, ![100000, 3]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1600000x3 : Shape := ⟨2, ![1600000, 3]⟩
abbrev S3x64 : Shape := ⟨2, ![3, 64]⟩
abbrev S1x64 : Shape := ⟨2, ![1, 64]⟩
abbrev S4000x64 : Shape := ⟨2, ![4000, 64]⟩
abbrev S4000x3 : Shape := ⟨2, ![4000, 3]⟩
abbrev S100000x1 : Shape := ⟨2, ![100000, 1]⟩
abbrev S5000x64 : Shape := ⟨2, ![5000, 64]⟩

abbrev nBuf : Space → Nat
  | .hbm => 134
  | .vmem => 25
  | .smem => 0
  | _ => 0

abbrev hbmTy0_0 (i : Nat) : BufTy := match i % 128 with
  | 0 => ⟨S100000x64, .f32⟩
  | 1 => ⟨S2x1600000, .i32⟩
  | 2 => ⟨S100000x3, .f32⟩
  | 3 => ⟨S131x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1, .i32⟩
  | 24 => ⟨S_, .i32⟩
  | 25 => ⟨S1600000x1, .i32⟩
  | 26 => ⟨S1600000x1, .i1⟩
  | 27 => ⟨S1x1, .i32⟩
  | 28 => ⟨S1600000x1, .i32⟩
  | 29 => ⟨S1600000x1, .i1⟩
  | 30 => ⟨S1600000x1, .i1⟩
  | 31 => ⟨S_, .i1⟩
  | 32 => ⟨S1600000, .i1⟩
  | 33 => ⟨S1600000x64, .f32⟩
  | 34 => ⟨S1600000x64, .i1⟩
  | 35 => ⟨S_, .f32⟩
  | 36 => ⟨S1600000x64, .f32⟩
  | 37 => ⟨S1600000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1, .i32⟩
  | 47 => ⟨S_, .i32⟩
  | 48 => ⟨S1600000x1, .i32⟩
  | 49 => ⟨S1600000x1, .i1⟩
  | 50 => ⟨S1x1, .i32⟩
  | 51 => ⟨S1600000x1, .i32⟩
  | 52 => ⟨S1600000x1, .i1⟩
  | 53 => ⟨S1600000x1, .i1⟩
  | 54 => ⟨S_, .i1⟩
  | 55 => ⟨S1600000, .i1⟩
  | 56 => ⟨S1600000x64, .f32⟩
  | 57 => ⟨S1600000x64, .i1⟩
  | 58 => ⟨S_, .f32⟩
  | 59 => ⟨S1600000x64, .f32⟩
  | 60 => ⟨S1600000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1, .i32⟩
  | 70 => ⟨S_, .i32⟩
  | 71 => ⟨S1600000x1, .i32⟩
  | 72 => ⟨S1600000x1, .i1⟩
  | 73 => ⟨S1x1, .i32⟩
  | 74 => ⟨S1600000x1, .i32⟩
  | 75 => ⟨S1600000x1, .i1⟩
  | 76 => ⟨S1600000x1, .i1⟩
  | 77 => ⟨S_, .i1⟩
  | 78 => ⟨S1600000, .i1⟩
  | 79 => ⟨S1600000x3, .f32⟩
  | 80 => ⟨S1600000x3, .i1⟩
  | 81 => ⟨S_, .f32⟩
  | 82 => ⟨S1600000x3, .f32⟩
  | 83 => ⟨S1600000x3, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1, .i32⟩
  | 93 => ⟨S_, .i32⟩
  | 94 => ⟨S1600000x1, .i32⟩
  | 95 => ⟨S1600000x1, .i1⟩
  | 96 => ⟨S1x1, .i32⟩
  | 97 => ⟨S1600000x1, .i32⟩
  | 98 => ⟨S1600000x1, .i1⟩
  | 99 => ⟨S1600000x1, .i1⟩
  | 100 => ⟨S_, .i1⟩
  | 101 => ⟨S1600000, .i1⟩
  | 102 => ⟨S1600000x3, .f32⟩
  | 103 => ⟨S1600000x3, .i1⟩
  | 104 => ⟨S_, .f32⟩
  | 105 => ⟨S1600000x3, .f32⟩
  | 106 => ⟨S1600000x3, .f32⟩
  | 107 => ⟨S1600000x3, .f32⟩
  | 108 => ⟨S64x64, .f32⟩
  | 109 => ⟨S64x64, .f32⟩
  | 110 => ⟨S3x64, .f32⟩
  | 111 => ⟨S1x64, .f32⟩
  | 112 => ⟨S1x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S_, .f32⟩
  | 119 => ⟨S1600000x1, .f32⟩
  | 120 => ⟨S_, .f32⟩
  | 121 => ⟨S100000x1, .f32⟩
  | 122 => ⟨S1600000x1, .i32⟩
  | 123 => ⟨S100000x1, .f32⟩
  | 124 => ⟨S_, .f32⟩
  | 125 => ⟨S100000x1, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S64x64, .f32⟩
  | 2 => ⟨S64x64, .f32⟩
  | 3 => ⟨S1x64, .f32⟩
  | 4 => ⟨S1x64, .f32⟩
  | 5 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x3, .f32⟩
  | .local _ .vmem, ⟨5, _⟩ => ⟨S4000x3, .f32⟩
  | .local _ .vmem, ⟨6, _⟩ => ⟨S64x64, .f32⟩
  | .local _ .vmem, ⟨7, _⟩ => ⟨S64x64, .f32⟩
  | .local _ .vmem, ⟨8, _⟩ => ⟨S3x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v6 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v7 : Ref sig .tc := ⟨.hbm, 106, rfl⟩
abbrev main_v8 : Ref sig .tc := ⟨.hbm, 107, rfl⟩
abbrev main_v9 : Ref sig .tc := ⟨.hbm, 108, rfl⟩
abbrev main_v10 : Ref sig .tc := ⟨.hbm, 109, rfl⟩
abbrev main_v11 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_cst : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_cst_0 : Ref sig .tc := ⟨.hbm, 118, rfl⟩
abbrev main_v18 : Ref sig .tc := ⟨.hbm, 119, rfl⟩
abbrev main_cst_1 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_cst_2 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000_S1600000x3_0 : S1600000.BroadcastsInDim S1600000x3 (![0] : Fin 1 → Fin S1600000x3.rank)
  bcast_S_S1600000x3 : S_.BroadcastsInDim S1600000x3 (![] : Fin 0 → Fin S1600000x3.rank)
  slices_S131x64_S64x64_0_0 : S131x64.Slices ![0, 0] S64x64
  slices_S131x64_S64x64_64_0 : S131x64.Slices ![64, 0] S64x64
  slices_S131x64_S3x64_128_0 : S131x64.Slices ![128, 0] S3x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S4000x64_S64x64_S4000x64_1_0_0_1_n_n_wf : DotDims.WF S4000x64 S64x64 S4000x64 [1] [0] [0] [1] [] []
  dot_S4000x3_S3x64_S4000x64_1_0_0_1_n_n_wf : DotDims.WF S4000x3 S3x64 S4000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S1600000x3.size a
  hwx0_2 : ∀ i : grid0.Coords, EltTy.bits .f32 = 32 ∨ (Rect.block (s := S1600000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S1600000x64.size a
  hwx0_9 : ∀ i : grid0.Coords, EltTy.bits .f32 = 32 ∨ (Rect.block (s := S1600000x64) S4000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000x3 : Shape := ⟨2, ![100000, 3]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S1600000x131 : Shape := ⟨2, ![1600000, 131]⟩
abbrev S1x64 : Shape := ⟨2, ![1, 64]⟩
abbrev S100000x1 : Shape := ⟨2, ![100000, 1]⟩
abbrev S100000x128 : Shape := ⟨2, ![100000, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x3, .f32⟩
  | .hbm, ⟨3, _⟩ => ⟨S131x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x3, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x3, .f32⟩
  | .hbm, ⟨51, _⟩ => ⟨S1600000x3, .f32⟩
  | .hbm, ⟨52, _⟩ => ⟨S1600000x131, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S_, .f32⟩
  | .hbm, ⟨69, _⟩ => ⟨S1600000x1, .f32⟩
  | .hbm, ⟨70, _⟩ => ⟨S_, .f32⟩
  | .hbm, ⟨71, _⟩ => ⟨S100000x1, .f32⟩
  | .hbm, ⟨72, _⟩ => ⟨S1600000x1, .i32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x128, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x3_S1600000x131_d1 : Shape.Concatenates [S1600000x64, S1600000x64, S1600000x3] S1600000x131 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S1600000x131_S131x64_S1600000x64_1_0_0_1_n_n_wf : DotDims.WF S1600000x131 S131x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x131_S131x64_S1600000x64_1_0_0_1_n_n : DotDims S1600000x131 S131x64 S1600000x64 where
  lhsContracting := [1]
  rhsContracting := [0]
  lhsNonContracting := [0]
  rhsNonContracting := [1]
  lhsBatch := []
  rhsBatch := []
  wf := dot_S1600000x131_S131x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.TakeFn.lean ====
/-
  The pure functions of the kernel program's host side.

  The row gather `take` of the kernel program numbers rows the numpy way (a negative row number counts from
  the end: `wrapRow`), gathers with that start index, and then REPLACES every row whose number is still outside
  `0 … 99999` by the NaN pattern (`inRange` is the per-row test). `take64` is that function on the 64-column
  feature table, `take3` on the 3-column position table. Between the regions the host sums the messages per
  receiving node (an accumulating scatter over the first row of the edge list), counts the messages per node
  the same way, and divides the sum by the count clipped below at one: `aggregate`.
-/
import proofs.«425533_j65094524339280_1_alg».proof.Proof.Gen.KernelIdeal

set_option maxRecDepth 16384

noncomputable section

namespace Cert.KernelIdeal.TakeFn

open Cert.KernelIdeal Cert.KernelIdeal.Gen
open Idealize.ShloMosaic Idealize.ShloMosaic.TcCoe Idealize.SL.Sem

variable {F : FTy → Type} [FloatOps F]

/-! ## The pure functions -/

/-- Row `r` of the edge list as a flat vector of 1600000 words. -/
def edgeRow0 (a1 : IVec S2x1600000 32) : IVec S1600000 32 :=
  shapeCast S1600000 (extractStridedSlice S1x1600000 ![0, 0] a1 slices_S2x1600000_S1x1600000_0_0) shapeCasts_S1x1600000_S1600000
def edgeRow1 (a1 : IVec S2x1600000 32) : IVec S1600000 32 :=
  shapeCast S1600000 (extractStridedSlice S1x1600000 ![1, 0] a1 slices_S2x1600000_S1x1600000_1_0) shapeCasts_S1x1600000_S1600000

/-- A negative row number counts from the end of the 100000-row table. -/
def wrapRow (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The gather's start indices: one wrapped row number per edge. -/
def startIdx (idx : IVec S1600000 32) : IVec S1600000x1 32 :=
  broadcastInDim S1600000x1 ![0] bcast_S1600000_S1600000x1_0 (wrapRow idx)

/-- Per edge: is the wrapped row number one of `0 … 99999`? -/
def inRange (idx : IVec S1600000 32) : IVec S1600000 1 :=
  Host.reduce IntOp.andi
    (andi (cmpi .sge (startIdx idx) (broadcastInDim S1600000x1 ![] bcast_S_S1600000x1 (constantI S_ 32 0#32)))
      (cmpi .sle (startIdx idx)
        (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The kernel program's row gather from the feature table. -/
def take64 (x : FVec F S100000x64 .f32) (idx : IVec S1600000 32) : FVec F S1600000x64 .f32 :=
  select (broadcastInDim S1600000x64 ![0] bcast_S1600000_S1600000x64_0 (inRange idx))
    (Host.gather gather_S100000x64_S1600000x1_S1600000x64_1_0_n_n_0_1_164 x (startIdx idx))
    (broadcastInDim S1600000x64 ![] bcast_S_S1600000x64 (constant (F := F) S_ .f32 0x7FC00000#32))

/-- The kernel program's row gather from the position table. -/
def take3 (p : FVec F S100000x3 .f32) (idx : IVec S1600000 32) : FVec F S1600000x3 .f32 :=
  select (broadcastInDim S1600000x3 ![0] bcast_S1600000_S1600000x3_0 (inRange idx))
    (Host.gather gather_S100000x3_S1600000x1_S1600000x3_1_0_n_n_0_1_13 p (startIdx idx))
    (broadcastInDim S1600000x3 ![] bcast_S_S1600000x3 (constant (F := F) S_ .f32 0x7FC00000#32))

/-- The mean message per receiving node: the per-node sum of the messages over the per-node count clipped at one. -/
def aggregate (msg : FVec F S1600000x64 .f32) (idx : IVec S1600000 32) : FVec F S100000x64 .f32 :=
  Host.divf (F := F)
    (Host.scatterAdd (F := F) scatter_S100000x64_S1600000x1_S1600000x64_1_0_0_1
      (broadcastInDim S100000x64 ![] bcast_S_S100000x64 (constant (F := F) S_ .f32 0x00000000#32))
      (broadcastInDim S1600000x1 ![0] bcast_S1600000_S1600000x1_0 idx) msg)
    (broadcastInDim S100000x64 ![0, 1] bcast_S100000x1_S100000x64_0_1
      (maximumf (F := F)
        (Host.scatterAdd (F := F) scatter_S100000x1_S1600000x1_S1600000x1_1_0_0_1
          (broadcastInDim S100000x1 ![] bcast_S_S100000x1 (constant (F := F) S_ .f32 0x00000000#32))
          (broadcastInDim S1600000x1 ![0] bcast_S1600000_S1600000x1_0 idx)
          (broadcastInDim S1600000x1 ![] bcast_S_S1600000x1 (constant (F := F) S_ .f32 0x3F800000#32)))
        (broadcastInDim S100000x1 ![] bcast_S_S100000x1 (constant (F := F) S_ .f32 0x3F800000#32))))

end Cert.KernelIdeal.TakeFn

end
-- ==== Proof.HostSide.lean ====
/-
  The host side of the kernel program: what each window array of the two regions holds when its region is
  entered, as a term of the launch memory.

  @main's host operations come in stretches: the two rows of the edge list; four row gathers, each a called
  function of 23 operations (features of the first and of the second node of every edge, positions likewise);
  the position difference with the weight blocks and bias rows of the message network; and, between the two
  regions, the mean message per node with the weight blocks and bias rows of the update network. Each stretch
  is evaluated on its own over ANY contents `W` before it, a gather's stretch in two cuts (its first 18
  operations give the wrapped start indices and the per-row range test, its last 5 gather, mask and select), so
  that no evaluation nests deeper than one cut. A buffer that a stretch does not write passes through it. The
  entry contents of a region are then read by walking back through the stretches to the launch memory.
-/
import proofs.«425533_j65094524339280_1_alg».proof.Proof.Gen.KernelIdeal.Frame
import proofs.«425533_j65094524339280_1_alg».proof.Proof.TakeFn
import Idealize.ShloMosaic.Lib.StableHlo.Run

set_option maxRecDepth 16384

noncomputable section

namespace Cert.KernelIdeal.HostSide

open Cert.KernelIdeal Cert.KernelIdeal.Gen Cert.KernelIdeal.TakeFn
open Idealize.ShloMosaic Idealize.ShloMosaic.TcCoe Idealize.ShloMosaic.StableHlo Idealize.SL.Sem

variable {F : FTy → Type} [FloatOps F]

/-- No operation of the stretch writes the buffer read: its contents pass through the stretch. -/
local macro "untouched" : tactic =>
  `(tactic| (refine StableHlo.after_of_forall_not_mem _ _ (List.forall_iff_forall_mem.mp ?_)
             simp only [hostOps0, hostOps0_1, hostOps0_2, hostOps0_3, hostOps0_4, hostOps0_5, hostOps1, List.Forall,
               StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- One step back through a stretch that does not write the buffer. -/
local macro "back" : tactic => `(tactic| refine Eq.trans (by untouched) ?_)

/-- Closes a stretch's value at one buffer: evaluate the stretch, clear the typed-reference casts of a called
    function's operations (adjacent pairs collapse to a cast between equal types), compare. -/
local macro "stretch_value" : tactic =>
  `(tactic| (after_results_simp <;> (try simp only [TRef.ofBuf, TRef.toBuf, cast_cast, cast_eq]) <;> (try rfl)))

/-- The contents after a list of operations, cut at position `n`: run the first `n`, then the rest. -/
theorem after_split {Val : EltTy → Type} (n : Nat) (ops : List (HloOp τ sig Val)) (V : Valuation τ sig Val) :
    StableHlo.after ops V = StableHlo.after (ops.drop n) (StableHlo.after (ops.take n) V) := by
  have happ : ∀ (l₁ l₂ : List (HloOp τ sig Val)) (V : Valuation τ sig Val),
      StableHlo.after (l₁ ++ l₂) V = StableHlo.after l₂ (StableHlo.after l₁ V) := by
    intro l₁
    induction l₁ with
    | nil => intro l₂ V; rfl
    | cons op l ih => intro l₂ V; exact ih l₂ _
  conv_lhs => rw [← List.take_append_drop n ops]
  exact happ _ _ _

/-! ## The stretches, one at a time, over any contents `W` before them -/

section Stretches
variable (W : Valuation τ sig (Elt F))

/-! ### Stretch 0: the two rows of the edge list -/

theorem s0_v1 : StableHlo.after (hostOps0 (F := F)) W (Proc.devRef .tc main_v1) = edgeRow0 (W (Proc.devRef .tc main_arg1)) := by
  stretch_value
theorem s0_v3 : StableHlo.after (hostOps0 (F := F)) W (Proc.devRef .tc main_v3) = edgeRow1 (W (Proc.devRef .tc main_arg1)) := by
  stretch_value

/-! ### Stretch 1: the features of each edge's first node -/

theorem s1a_idx : StableHlo.after ((hostOps0_1 (F := F)).take 18) W (Proc.devRef .tc main_call0_v5) = startIdx (W (Proc.devRef .tc main_v1)) := by
  simp only [hostOps0_1, List.take_succ_cons, List.take_zero]
  stretch_value
theorem s1a_ok : StableHlo.after ((hostOps0_1 (F := F)).take 18) W (Proc.devRef .tc main_call0_v12) = inRange (W (Proc.devRef .tc main_v1)) := by
  simp only [hostOps0_1, List.take_succ_cons, List.take_zero]
  stretch_value
theorem s1a_tab : StableHlo.after ((hostOps0_1 (F := F)).take 18) W (Proc.devRef .tc main_arg0) = W (Proc.devRef .tc main_arg0) := by
  simp only [hostOps0_1, List.take_succ_cons, List.take_zero]
  after_results_simp
theorem s1b (W' : Valuation τ sig (Elt F)) : StableHlo.after ((hostOps0_1 (F := F)).drop 18) W' (Proc.devRef .tc main_v4)
    = select (broadcastInDim S1600000x64 ![0] bcast_S1600000_S1600000x64_0 (W' (Proc.devRef .tc main_call0_v12)))
        (Host.gather gather_S100000x64_S1600000x1_S1600000x64_1_0_n_n_0_1_164 (W' (Proc.devRef .tc main_arg0)) (W' (Proc.devRef .tc main_call0_v5)))
        (broadcastInDim S1600000x64 ![] bcast_S_S1600000x64 (constant (F := F) S_ .f32 0x7FC00000#32)) := by
  simp only [hostOps0_1, List.drop_succ_cons, List.drop_zero]
  stretch_value
theorem s1 : StableHlo.after (hostOps0_1 (F := F)) W (Proc.devRef .tc main_v4)
    = take64 (W (Proc.devRef .tc main_arg0)) (W (Proc.devRef .tc main_v1)) := by
  rw [after_split 18, s1b, s1a_ok, s1a_idx, s1a_tab]
  rfl

/-! ### Stretch 2: the features of each edge's second node -/

theorem s2a_idx : StableHlo.after ((hostOps0_2 (F := F)).take 18) W (Proc.devRef .tc main_call1_v5) = startIdx (W (Proc.devRef .tc main_v3)) := by
  simp only [hostOps0_2, List.take_succ_cons, List.take_zero]
  stretch_value
theorem s2a_ok : StableHlo.after ((hostOps0_2 (F := F)).take 18) W (Proc.devRef .tc main_call1_v12) = inRange (W (Proc.devRef .tc main_v3)) := by
  simp only [hostOps0_2, List.take_succ_cons, List.take_zero]
  stretch_value
theorem s2a_tab : StableHlo.after ((hostOps0_2 (F := F)).take 18) W (Proc.devRef .tc main_arg0) = W (Proc.devRef .tc main_arg0) := by
  simp only [hostOps0_2, List.take_succ_cons, List.take_zero]
  after_results_simp
theorem s2b (W' : Valuation τ sig (Elt F)) : StableHlo.after ((hostOps0_2 (F := F)).drop 18) W' (Proc.devRef .tc main_v5)
    = select (broadcastInDim S1600000x64 ![0] bcast_S1600000_S1600000x64_0 (W' (Proc.devRef .tc main_call1_v12)))
        (Host.gather gather_S100000x64_S1600000x1_S1600000x64_1_0_n_n_0_1_164 (W' (Proc.devRef .tc main_arg0)) (W' (Proc.devRef .tc main_call1_v5)))
        (broadcastInDim S1600000x64 ![] bcast_S_S1600000x64 (constant (F := F) S_ .f32 0x7FC00000#32)) := by
  simp only [hostOps0_2, List.drop_succ_cons, List.drop_zero]
  stretch_value
theorem s2 : StableHlo.after (hostOps0_2 (F := F)) W (Proc.devRef .tc main_v5)
    = take64 (W (Proc.devRef .tc main_arg0)) (W (Proc.devRef .tc main_v3)) := by
  rw [after_split 18, s2b, s2a_ok, s2a_idx, s2a_tab]
  rfl

/-! ### Stretch 3: the position of each edge's first node -/

theorem s3a_idx : StableHlo.after ((hostOps0_3 (F := F)).take 18) W (Proc.devRef .tc main_call2_v5) = startIdx (W (Proc.devRef .tc main_v1)) := by
  simp only [hostOps0_3, List.take_succ_cons, List.take_zero]
  stretch_value
theorem s3a_ok : StableHlo.after ((hostOps0_3 (F := F)).take 18) W (Proc.devRef .tc main_call2_v12) = inRange (W (Proc.devRef .tc main_v1)) := by
  simp only [hostOps0_3, List.take_succ_cons, List.take_zero]
  stretch_value
theorem s3a_tab : StableHlo.after ((hostOps0_3 (F := F)).take 18) W (Proc.devRef .tc main_arg2) = W (Proc.devRef .tc main_arg2) := by
  simp only [hostOps0_3, List.take_succ_cons, List.take_zero]
  after_results_simp
theorem s3b (W' : Valuation τ sig (Elt F)) : StableHlo.after ((hostOps0_3 (F := F)).drop 18) W' (Proc.devRef .tc main_v6)
    = select (broadcastInDim S1600000x3 ![0] bcast_S1600000_S1600000x3_0 (W' (Proc.devRef .tc main_call2_v12)))
        (Host.gather gather_S100000x3_S1600000x1_S1600000x3_1_0_n_n_0_1_13 (W' (Proc.devRef .tc main_arg2)) (W' (Proc.devRef .tc main_call2_v5)))
        (broadcastInDim S1600000x3 ![] bcast_S_S1600000x3 (constant (F := F) S_ .f32 0x7FC00000#32)) := by
  simp only [hostOps0_3, List.drop_succ_cons, List.drop_zero]
  stretch_value
theorem s3 : StableHlo.after (hostOps0_3 (F := F)) W (Proc.devRef .tc main_v6)
    = take3 (W (Proc.devRef .tc main_arg2)) (W (Proc.devRef .tc main_v1)) := by
  rw [after_split 18, s3b, s3a_ok, s3a_idx, s3a_tab]
  rfl

/-! ### Stretch 4: the position of each edge's second node -/

theorem s4a_idx : StableHlo.after ((hostOps0_4 (F := F)).take 18) W (Proc.devRef .tc main_call3_v5) = startIdx (W (Proc.devRef .tc main_v3)) := by
  simp only [hostOps0_4, List.take_succ_cons, List.take_zero]
  stretch_value
theorem s4a_ok : StableHlo.after ((hostOps0_4 (F := F)).take 18) W (Proc.devRef .tc main_call3_v12) = inRange (W (Proc.devRef .tc main_v3)) := by
  simp only [hostOps0_4, List.take_succ_cons, List.take_zero]
  stretch_value
theorem s4a_tab : StableHlo.after ((hostOps0_4 (F := F)).take 18) W (Proc.devRef .tc main_arg2) = W (Proc.devRef .tc main_arg2) := by
  simp only [hostOps0_4, List.take_succ_cons, List.take_zero]
  after_results_simp
theorem s4b (W' : Valuation τ sig (Elt F)) : StableHlo.after ((hostOps0_4 (F := F)).drop 18) W' (Proc.devRef .tc main_v7)
    = select (broadcastInDim S1600000x3 ![0] bcast_S1600000_S1600000x3_0 (W' (Proc.devRef .tc main_call3_v12)))
        (Host.gather gather_S100000x3_S1600000x1_S1600000x3_1_0_n_n_0_1_13 (W' (Proc.devRef .tc main_arg2)) (W' (Proc.devRef .tc main_call3_v5)))
        (broadcastInDim S1600000x3 ![] bcast_S_S1600000x3 (constant (F := F) S_ .f32 0x7FC00000#32)) := by
  simp only [hostOps0_4, List.drop_succ_cons, List.drop_zero]
  stretch_value
theorem s4 : StableHlo.after (hostOps0_4 (F := F)) W (Proc.devRef .tc main_v7)
    = take3 (W (Proc.devRef .tc main_arg2)) (W (Proc.devRef .tc main_v3)) := by
  rw [after_split 18, s4b, s4a_ok, s4a_idx, s4a_tab]
  rfl

/-! ### Stretch 5: the position difference, the weight blocks and the bias rows of the message network -/

theorem s5_v8 : StableHlo.after (hostOps0_5 (F := F)) W (Proc.devRef .tc main_v8)
    = subf (F := F) (W (Proc.devRef .tc main_v7)) (W (Proc.devRef .tc main_v6)) := by stretch_value
theorem s5_v9 : StableHlo.after (hostOps0_5 (F := F)) W (Proc.devRef .tc main_v9)
    = extractStridedSlice S64x64 ![0, 0] (W (Proc.devRef .tc main_arg3)) slices_S131x64_S64x64_0_0 := by stretch_value
theorem s5_v10 : StableHlo.after (hostOps0_5 (F := F)) W (Proc.devRef .tc main_v10)
    = extractStridedSlice S64x64 ![64, 0] (W (Proc.devRef .tc main_arg3)) slices_S131x64_S64x64_64_0 := by stretch_value
theorem s5_v11 : StableHlo.after (hostOps0_5 (F := F)) W (Proc.devRef .tc main_v11)
    = extractStridedSlice S3x64 ![128, 0] (W (Proc.devRef .tc main_arg3)) slices_S131x64_S3x64_128_0 := by stretch_value
theorem s5_v12 : StableHlo.after (hostOps0_5 (F := F)) W (Proc.devRef .tc main_v12)
    = shapeCast S1x64 (W (Proc.devRef .tc main_arg4)) shapeCasts_S64_S1x64 := by stretch_value
theorem s5_v13 : StableHlo.after (hostOps0_5 (F := F)) W (Proc.devRef .tc main_v13)
    = shapeCast S1x64 (W (Proc.devRef .tc main_arg6)) shapeCasts_S64_S1x64 := by stretch_value

/-! ### The stretch between the regions: the mean message per node, the weight blocks and bias rows of the update network -/

theorem h1_v25 : StableHlo.after (hostOps1 (F := F)) W (Proc.devRef .tc main_v25)
    = aggregate (W (Proc.devRef .tc main_v14)) (W (Proc.devRef .tc main_v1)) := by stretch_value
theorem h1_v26 : StableHlo.after (hostOps1 (F := F)) W (Proc.devRef .tc main_v26)
    = extractStridedSlice S64x64 ![0, 0] (W (Proc.devRef .tc main_arg7)) slices_S128x64_S64x64_0_0 := by stretch_value
theorem h1_v27 : StableHlo.after (hostOps1 (F := F)) W (Proc.devRef .tc main_v27)
    = extractStridedSlice S64x64 ![64, 0] (W (Proc.devRef .tc main_arg7)) slices_S128x64_S64x64_64_0 := by stretch_value
theorem h1_v28 : StableHlo.after (hostOps1 (F := F)) W (Proc.devRef .tc main_v28)
    = shapeCast S1x64 (W (Proc.devRef .tc main_arg8)) shapeCasts_S64_S1x64 := by stretch_value
theorem h1_v29 : StableHlo.after (hostOps1 (F := F)) W (Proc.devRef .tc main_v29)
    = shapeCast S1x64 (W (Proc.devRef .tc main_arg10)) shapeCasts_S64_S1x64 := by stretch_value

end Stretches

/-! ## Walking back to the launch memory -/

variable (m : (ℓ : Loc nD τ sig) → Buf (Elt F) ℓ) (ρ : Dev nD → PrngReg)

/-- An argument array of core `c` at launch. -/
abbrev arg (c : Dev nD) (b : Ref sig .tc) : Buf (Elt F) ((c.tc : Thread nD τ).loc b) := m ((c.tc : Thread nD τ).loc b)

/-- The two rows of the edge list, at the boundary after stretch 0. -/
theorem W1_v1 (c : Dev nD) : W1 (F := F) m ρ c (Proc.devRef .tc main_v1) = edgeRow0 (arg m c main_arg1) := s0_v1 (W0 m ρ c)
theorem W1_v3 (c : Dev nD) : W1 (F := F) m ρ c (Proc.devRef .tc main_v3) = edgeRow1 (arg m c main_arg1) := s0_v3 (W0 m ρ c)

/-! ### Region 0's window arrays at its entry (boundary 6) -/

theorem V6_v4 (c : Dev nD) : V6 (F := F) m ρ c main_v4 = take64 (arg m c main_arg0) (edgeRow0 (arg m c main_arg1)) := by
  show W6 m ρ c (Proc.devRef .tc main_v4) = _
  back; back; back; back
  refine (s1 (W1 m ρ c)).trans ?_
  rw [W1_v1]
  refine congrArg (fun t => take64 t _) ?_
  back; rfl

theorem V6_v5 (c : Dev nD) : V6 (F := F) m ρ c main_v5 = take64 (arg m c main_arg0) (edgeRow1 (arg m c main_arg1)) := by
  show W6 m ρ c (Proc.devRef .tc main_v5) = _
  back; back; back
  refine (s2 (W2 m ρ c)).trans ?_
  have h3 : W2 m ρ c (Proc.devRef .tc main_v3) = edgeRow1 (arg m c main_arg1) := by back; exact W1_v3 m ρ c
  have h0 : W2 m ρ c (Proc.devRef .tc main_arg0) = arg m c main_arg0 := by back; back; rfl
  rw [h3, h0]

theorem V6_v8 (c : Dev nD) : V6 (F := F) m ρ c main_v8
    = subf (F := F) (take3 (arg m c main_arg2) (edgeRow1 (arg m c main_arg1))) (take3 (arg m c main_arg2) (edgeRow0 (arg m c main_arg1))) := by
  show W6 m ρ c (Proc.devRef .tc main_v8) = _
  refine (s5_v8 (W5 m ρ c)).trans ?_
  have h7 : W5 m ρ c (Proc.devRef .tc main_v7) = take3 (arg m c main_arg2) (edgeRow1 (arg m c main_arg1)) := by
    refine (s4 (W4 m ρ c)).trans ?_
    have h3 : W4 m ρ c (Proc.devRef .tc main_v3) = edgeRow1 (arg m c main_arg1) := by back; back; back; exact W1_v3 m ρ c
    have h2 : W4 m ρ c (Proc.devRef .tc main_arg2) = arg m c main_arg2 := by back; back; back; back; rfl
    rw [h3, h2]
  have h6 : W5 m ρ c (Proc.devRef .tc main_v6) = take3 (arg m c main_arg2) (edgeRow0 (arg m c main_arg1)) := by
    back
    refine (s3 (W3 m ρ c)).trans ?_
    have h1 : W3 m ρ c (Proc.devRef .tc main_v1) = edgeRow0 (arg m c main_arg1) := by back; back; exact W1_v1 m ρ c
    have h2 : W3 m ρ c (Proc.devRef .tc main_arg2) = arg m c main_arg2 := by back; back; back; rfl
    rw [h1, h2]
  rw [h7, h6]

theorem W5_arg3 (c : Dev nD) : W5 (F := F) m ρ c (Proc.devRef .tc main_arg3) = arg m c main_arg3 := by
  back; back; back; back; back; rfl
theorem W5_arg4 (c : Dev nD) : W5 (F := F) m ρ c (Proc.devRef .tc main_arg4) = arg m c main_arg4 := by
  back; back; back; back; back; rfl
theorem W5_arg6 (c : Dev nD) : W5 (F := F) m ρ c (Proc.devRef .tc main_arg6) = arg m c main_arg6 := by
  back; back; back; back; back; rfl

theorem V6_v9 (c : Dev nD) : V6 (F := F) m ρ c main_v9 = extractStridedSlice S64x64 ![0, 0] (arg m c main_arg3) slices_S131x64_S64x64_0_0 := by
  show W6 m ρ c (Proc.devRef .tc main_v9) = _
  refine (s5_v9 (W5 m ρ c)).trans ?_; rw [W5_arg3]
theorem V6_v10 (c : Dev nD) : V6 (F := F) m ρ c main_v10 = extractStridedSlice S64x64 ![64, 0] (arg m c main_arg3) slices_S131x64_S64x64_64_0 := by
  show W6 m ρ c (Proc.devRef .tc main_v10) = _
  refine (s5_v10 (W5 m ρ c)).trans ?_; rw [W5_arg3]
theorem V6_v11 (c : Dev nD) : V6 (F := F) m ρ c main_v11 = extractStridedSlice S3x64 ![128, 0] (arg m c main_arg3) slices_S131x64_S3x64_128_0 := by
  show W6 m ρ c (Proc.devRef .tc main_v11) = _
  refine (s5_v11 (W5 m ρ c)).trans ?_; rw [W5_arg3]
theorem V6_v12 (c : Dev nD) : V6 (F := F) m ρ c main_v12 = shapeCast S1x64 (arg m c main_arg4) shapeCasts_S64_S1x64 := by
  show W6 m ρ c (Proc.devRef .tc main_v12) = _
  refine (s5_v12 (W5 m ρ c)).trans ?_; rw [W5_arg4]
theorem V6_v13 (c : Dev nD) : V6 (F := F) m ρ c main_v13 = shapeCast S1x64 (arg m c main_arg6) shapeCasts_S64_S1x64 := by
  show W6 m ρ c (Proc.devRef .tc main_v13) = _
  refine (s5_v13 (W5 m ρ c)).trans ?_; rw [W5_arg6]
theorem V6_arg5 (c : Dev nD) : V6 (F := F) m ρ c main_arg5 = arg m c main_arg5 := by
  show W6 m ρ c (Proc.devRef .tc main_arg5) = _
  back; back; back; back; back; back; rfl

/-! ### Region 1's window arrays at its entry (boundary 8), over region 0's result array -/

/-- A buffer that is no array of region 0 and that no host stretch writes holds its launch contents at region 0's exit. -/
theorem W7_v1 (c : Dev nD) : W7 (F := F) m ρ c (Proc.devRef .tc main_v1) = edgeRow0 (arg m c main_arg1) := by
  refine (W7_of_ne m ρ c main_v1 (by decide)).trans ?_
  back; back; back; back; back; exact W1_v1 m ρ c
theorem W7_arg0 (c : Dev nD) : W7 (F := F) m ρ c (Proc.devRef .tc main_arg0) = arg m c main_arg0 := by
  refine (W7_of_ne m ρ c main_arg0 (by decide)).trans ?_
  back; back; back; back; back; back; rfl
theorem W7_arg7 (c : Dev nD) : W7 (F := F) m ρ c (Proc.devRef .tc main_arg7) = arg m c main_arg7 := by
  refine (W7_of_ne m ρ c main_arg7 (by decide)).trans ?_
  back; back; back; back; back; back; rfl
theorem W7_arg8 (c : Dev nD) : W7 (F := F) m ρ c (Proc.devRef .tc main_arg8) = arg m c main_arg8 := by
  refine (W7_of_ne m ρ c main_arg8 (by decide)).trans ?_
  back; back; back; back; back; back; rfl
theorem W7_arg9 (c : Dev nD) : W7 (F := F) m ρ c (Proc.devRef .tc main_arg9) = arg m c main_arg9 := by
  refine (W7_of_ne m ρ c main_arg9 (by decide)).trans ?_
  back; back; back; back; back; back; rfl
theorem W7_arg10 (c : Dev nD) : W7 (F := F) m ρ c (Proc.devRef .tc main_arg10) = arg m c main_arg10 := by
  refine (W7_of_ne m ρ c main_arg10 (by decide)).trans ?_
  back; back; back; back; back; back; rfl

theorem V8_arg0 (c : Dev nD) : V8 (F := F) m ρ c main_arg0 = arg m c main_arg0 := by
  show W8 m ρ c (Proc.devRef .tc main_arg0) = _
  back; exact W7_arg0 m ρ c
theorem V8_arg9 (c : Dev nD) : V8 (F := F) m ρ c main_arg9 = arg m c main_arg9 := by
  show W8 m ρ c (Proc.devRef .tc main_arg9) = _
  back; exact W7_arg9 m ρ c
theorem V8_v25 (c : Dev nD) : V8 (F := F) m ρ c main_v25
    = aggregate (W7 m ρ c (Proc.devRef .tc main_v14)) (edgeRow0 (arg m c main_arg1)) := by
  show W8 m ρ c (Proc.devRef .tc main_v25) = _
  refine (h1_v25 (W7 m ρ c)).trans ?_; rw [W7_v1]
theorem V8_v26 (c : Dev nD) : V8 (F := F) m ρ c main_v26 = extractStridedSlice S64x64 ![0, 0] (arg m c main_arg7) slices_S128x64_S64x64_0_0 := by
  show W8 m ρ c (Proc.devRef .tc main_v26) = _
  refine (h1_v26 (W7 m ρ c)).trans ?_; rw [W7_arg7]
theorem V8_v27 (c : Dev nD) : V8 (F := F) m ρ c main_v27 = extractStridedSlice S64x64 ![64, 0] (arg m c main_arg7) slices_S128x64_S64x64_64_0 := by
  show W8 m ρ c (Proc.devRef .tc main_v27) = _
  refine (h1_v27 (W7 m ρ c)).trans ?_; rw [W7_arg7]
theorem V8_v28 (c : Dev nD) : V8 (F := F) m ρ c main_v28 = shapeCast S1x64 (arg m c main_arg8) shapeCasts_S64_S1x64 := by
  show W8 m ρ c (Proc.devRef .tc main_v28) = _
  refine (h1_v28 (W7 m ρ c)).trans ?_; rw [W7_arg8]
theorem V8_v29 (c : Dev nD) : V8 (F := F) m ρ c main_v29 = shapeCast S1x64 (arg m c main_arg10) shapeCasts_S64_S1x64 := by
  show W8 m ρ c (Proc.devRef .tc main_v29) = _
  refine (h1_v29 (W7 m ρ c)).trans ?_; rw [W7_arg10]

end Cert.KernelIdeal.HostSide

end
-- ==== Proof.Spec.lean ====
/-
  The two small networks of this message-passing layer, as index-by-index functions on extended reals.

  MESSAGE. For an edge `e` with gathered rows `xi e`, `xj e` (64 features each) and `dp e` (3 coordinates),
  the hidden unit `k` is `relu (xi e · wxi[:, k] + xj e · wxj[:, k] + dp e · wpos[:, k] + b1 k)` and output
  column `d` is the sum over `k` of hidden unit `k` times `w2 k d`, plus `b2 d`. The first layer is written
  as THREE dot products (the weight matrix cut into its row blocks 0–63, 64–127, 128–130); that one dot product
  over the 131 joined columns is the same number is `dot131_split`, a regrouping of a finite sum, which holds
  on the extended reals without any finiteness (addition there is commutative and associative).

  UPDATE. For a node `n` with its features `x n` and its aggregated message `a n` (64 each), the same shape with
  two row blocks (0–63, 64–127) of a 128-row matrix: `dot128_split`.

  Biases are carried as one-row matrices `[1, 64]`, as both kernels load them.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals of a literal rank-2 shape. -/
abbrev Mat (r c : Nat) := (⟨2, ![r, c]⟩ : Shape).Idx → EReal

/-- Rows `off … off + r - 1` of a 64-column matrix, as a matrix of its own. -/
def rowBlock {R : Nat} (r off : Nat) (h : off + r ≤ R) (w : Mat R 64) : Mat r 64 :=
  fun i => w (ix2 (⟨off + (i 0).val, by have := idx2_lt0 i; omega⟩ : Fin R) (i 1))

/-- A 64-vector as a one-row matrix. -/
def biasRow (b : (⟨1, ![64]⟩ : Shape).Idx → EReal) : Mat 1 64 := fun i => b (ix1 (i 1))

/-! ## The message network -/

/-- Hidden pre-activation `k` of edge `e`: three dot products and the bias. -/
def msgHid (xi xj : Mat 1600000 64) (dp : Mat 1600000 3) (wxi wxj : Mat 64 64) (wpos : Mat 3 64) (b1 : Mat 1 64)
    (e : Fin 1600000) (k : Fin 64) : EReal :=
  (∑ a : Fin 64, xi (ix2 e a) * wxi (ix2 a k)) + (∑ a : Fin 64, xj (ix2 e a) * wxj (ix2 a k))
    + (∑ a : Fin 3, dp (ix2 e a) * wpos (ix2 a k)) + b1 (ix2 (0 : Fin 1) k)

/-- The message of every edge: `relu` of the hidden layer through the second matrix, plus its bias. -/
def msg (xi xj : Mat 1600000 64) (dp : Mat 1600000 3) (wxi wxj : Mat 64 64) (wpos : Mat 3 64) (b1 : Mat 1 64)
    (w2 : Mat 64 64) (b2 : Mat 1 64) : Mat 1600000 64 :=
  fun i => (∑ k : Fin 64, max (msgHid xi xj dp wxi wxj wpos b1 (i 0) k) 0 * w2 (ix2 k (i 1))) + b2 (ix2 (0 : Fin 1) (i 1))

/-- Row `e` of the message depends on row `e` of the three gathered arrays only. -/
theorem msg_row_congr {xi xi' xj xj' : Mat 1600000 64} {dp dp' : Mat 1600000 3} (wxi wxj : Mat 64 64) (wpos : Mat 3 64)
    (b1 : Mat 1 64) (w2 : Mat 64 64) (b2 : Mat 1 64) (e : Fin 1600000)
    (hi : ∀ a : Fin 64, xi (ix2 e a) = xi' (ix2 e a)) (hj : ∀ a : Fin 64, xj (ix2 e a) = xj' (ix2 e a))
    (hp : ∀ a : Fin 3, dp (ix2 e a) = dp' (ix2 e a)) (d : Fin 64) :
    msg xi xj dp wxi wxj wpos b1 w2 b2 (ix2 e d) = msg xi' xj' dp' wxi wxj wpos b1 w2 b2 (ix2 e d) := by
  unfold msg msgHid
  simp only [hi, hj, hp]

/-! ## The update network -/

/-- Hidden pre-activation `k` of node `n`: two dot products and the bias. -/
def updHid (x a : Mat 100000 64) (wx wa : Mat 64 64) (b1 : Mat 1 64) (n : Fin 100000) (k : Fin 64) : EReal :=
  (∑ t : Fin 64, x (ix2 n t) * wx (ix2 t k)) + (∑ t : Fin 64, a (ix2 n t) * wa (ix2 t k)) + b1 (ix2 (0 : Fin 1) k)

/-- The updated features of every node. -/
def upd (x a : Mat 100000 64) (wx wa : Mat 64 64) (b1 : Mat 1 64) (w2 : Mat 64 64) (b2 : Mat 1 64) : Mat 100000 64 :=
  fun i => (∑ k : Fin 64, max (updHid x a wx wa b1 (i 0) k) 0 * w2 (ix2 k (i 1))) + b2 (ix2 (0 : Fin 1) (i 1))

/-! ## One dot product over joined columns is the sum of the blocks' dot products -/

/-- A sum over `64 + 64 + 3` terms, cut at 64 and 128. -/
theorem sum131_split (f : Fin 131 → EReal) :
    ∑ a : Fin 131, f a
      = (∑ a : Fin 64, f ⟨a.val, by omega⟩) + (∑ a : Fin 64, f ⟨64 + a.val, by omega⟩) + (∑ a : Fin 3, f ⟨128 + a.val, by omega⟩) := by
  have h : ∑ a : Fin 131, f a = ∑ a : Fin (64 + 64 + 3), f (Fin.cast (by norm_num) a) :=
    (Equiv.sum_comp (finCongr (by norm_num : 64 + 64 + 3 = 131)) f).symm
  rw [h, Fin.sum_univ_add, Fin.sum_univ_add]
  refine congrArg₂ (· + ·) (congrArg₂ (· + ·) ?_ ?_) ?_
  · exact Finset.sum_congr rfl fun a _ => congrArg f (Fin.ext rfl)
  · exact Finset.sum_congr rfl fun a _ => congrArg f (Fin.ext rfl)
  · exact Finset.sum_congr rfl fun a _ => congrArg f (Fin.ext rfl)

/-- A sum over `64 + 64` terms, cut at 64. -/
theorem sum128_split (f : Fin 128 → EReal) :
    ∑ a : Fin 128, f a = (∑ a : Fin 64, f ⟨a.val, by omega⟩) + (∑ a : Fin 64, f ⟨64 + a.val, by omega⟩) := by
  have h : ∑ a : Fin 128, f a = ∑ a : Fin (64 + 64), f (Fin.cast (by norm_num) a) :=
    (Equiv.sum_comp (finCongr (by norm_num : 64 + 64 = 128)) f).symm
  rw [h, Fin.sum_univ_add]
  refine congrArg₂ (· + ·) ?_ ?_
  · exact Finset.sum_congr rfl fun a _ => congrArg f (Fin.ext rfl)
  · exact Finset.sum_congr rfl fun a _ => congrArg f (Fin.ext rfl)

end Cert.Spec

end
-- ==== Proof.MsgValue.lean ====
/-
  REGION 0, THE MESSAGE NETWORK ON BLOCKS OF 4000 EDGES, READ AS ONE ARRAY.

  The region runs over 400 grid points. At point `t` it holds rows `4000 t … 4000 t + 3999` of the three gathered
  arrays (source features, target features, relative positions) and the whole of the six weight and bias arrays, and it
  writes rows `4000 t … 4000 t + 3999` of the message array. The body is two layers on extended reals: three dot
  products (over 64, 64 and 3 columns) plus a bias row, the maximum with zero, a dot product over the 64 hidden units,
  plus a second bias row. Every change of float format is the identity on extended reals, and every matrix product
  accumulates into zero, so at row `p` of the block and column `q` the body's value is exactly the specification's
  `msg` at row `4000 t + p`, column `q`. The 400 blocks tile the 1600000 rows (row `r` lies in block `r / 4000`), so
  after the region the message array IS `msg` of the arrays the region found.
-/
import proofs.«425533_j65094524339280_1_alg».proof.Proof.Gen.KernelIdeal.Frame
import proofs.«425533_j65094524339280_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgValue

open Cert.KernelIdeal Cert.KernelIdeal.Gen Idealize.ShloMosaic Idealize.ShloMosaic.TcCoe Idealize.SL.Sem
open Idealize.ShloMosaic.Pipeline (Dat)
open Idealize.ShloMosaic.ValueIdx

/-! ## A matrix product into zero, read at a row and a column

For a product of a `[4000, K]` block with a `[K, 64]` matrix contracting the block's columns with the matrix's rows,
the left operand's index at output `(p, q)` and contraction position `k` is `(p, k)` and the right operand's is
`(k, q)`: one fact per operand and axis, then the sum over the one-axis contraction index is re-indexed by `Fin K`. -/

/-! ### Contraction over 64 columns -/

theorem lhs64_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs64_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs64_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs64_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product of a `[4000, 64]` block and a `[64, 64]` matrix, accumulated into zero, at `(p, q)`. -/
theorem matmul64_apply {φ₁ φ₂ : FTy} (l : FVec Ideal S4000x64 φ₁) (r : FVec Ideal S64x64 φ₂) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### Contraction over 3 columns -/

theorem lhs3_0 (i : S4000x64.Idx) (q : dot_S4000x3_S3x64_S4000x64_1_0_0_1_n_n.contr.Idx) :
    (dot_S4000x3_S3x64_S4000x64_1_0_0_1_n_n.lhsIdx i q 0).val = (i 0).val := by
  unfold DotDims.lhsIdx
  rw [dif_neg (show ¬(0 : Fin S4000x3.rank) ∈ dot_S4000x3_S3x64_S4000x64_1_0_0_1_n_n.lhsBatch by decide), dif_pos (show (0 : Fin S4000x3.rank) ∈ dot_S4000x3_S3x64_S4000x64_1_0_0_1_n_n.lhsNonContracting by decide)]
  rfl
theorem lhs3_1 (i : S4000x64.Idx) (q : dot_S4000x3_S3x64_S4000x64_1_0_0_1_n_n.contr.Idx) :
    (dot_S4000x3_S3x64_S4000x64_1_0_0_1_n_n.lhsIdx i q 1).val = (q ⟨0, by decide⟩).val :=
  dot_S4000x3_S3x64_S4000x64_1_0_0_1_n_n.lhsIdx_val_of_single rfl i q
theorem rhs3_0 (i : S4000x64.Idx) (q : dot_S4000x3_S3x64_S4000x64_1_0_0_1_n_n.contr.Idx) :
    (dot_S4000x3_S3x64_S4000x64_1_0_0_1_n_n.rhsIdx i q 0).val = (q ⟨0, by decide⟩).val :=
  dot_S4000x3_S3x64_S4000x64_1_0_0_1_n_n.rhsIdx_val_of_single rfl i q
theorem rhs3_1 (i : S4000x64.Idx) (q : dot_S4000x3_S3x64_S4000x64_1_0_0_1_n_n.contr.Idx) :
    (dot_S4000x3_S3x64_S4000x64_1_0_0_1_n_n.rhsIdx i q 1).val = (i 1).val := by
  unfold DotDims.rhsIdx
  rw [dif_neg (show ¬(1 : Fin S3x64.rank) ∈ dot_S4000x3_S3x64_S4000x64_1_0_0_1_n_n.rhsBatch by decide), dif_pos (show (1 : Fin S3x64.rank) ∈ dot_S4000x3_S3x64_S4000x64_1_0_0_1_n_n.rhsNonContracting by decide)]
  rfl

/-- The product of a `[4000, 3]` block and a `[3, 64]` matrix, accumulated into zero, at `(p, q)`. -/
theorem matmul3_apply {φ₁ φ₂ : FTy} (l : FVec Ideal S4000x3 φ₁) (r : FVec Ideal S3x64 φ₂) (p : Fin 4000) (q : Fin 64) :
    matmul dot_S4000x3_S3x64_S4000x64_1_0_0_1_n_n none l r (constant (F := Ideal) S4000x64 .f32 0x00000000#32) (ix2 p q)
      = ∑ k : Fin 3, l (ix2 p k) * r (ix2 k q) := by
  simp only [matmul]
  rw [Ideal.matmul_constant_zero_apply, ← Equiv.sum_comp (contrEquiv1 dot_S4000x3_S3x64_S4000x64_1_0_0_1_n_n 3 rfl rfl).symm]
  refine Finset.sum_congr rfl fun k _ => ?_
  have hk := contrEquiv1_symm_val dot_S4000x3_S3x64_S4000x64_1_0_0_1_n_n 3 rfl rfl k
  have el : dot_S4000x3_S3x64_S4000x64_1_0_0_1_n_n.lhsIdx (ix2 p q) ((contrEquiv1 dot_S4000x3_S3x64_S4000x64_1_0_0_1_n_n 3 rfl rfl).symm k) = ix2 p k := funext fun a => Fin.ext (by
    match a with
    | ⟨0, _⟩ => exact lhs3_0 _ _
    | ⟨1, _⟩ => exact (lhs3_1 _ _).trans hk)
  have er : dot_S4000x3_S3x64_S4000x64_1_0_0_1_n_n.rhsIdx (ix2 p q) ((contrEquiv1 dot_S4000x3_S3x64_S4000x64_1_0_0_1_n_n 3 rfl rfl).symm k) = ix2 k q := funext fun a => Fin.ext (by
    match a with
    | ⟨0, _⟩ => exact (rhs3_0 _ _).trans hk
    | ⟨1, _⟩ => exact rhs3_1 _ _)
  rw [el, er]

/-! ## The body's value at a row and a column -/

/-- Row `p`, column `q` of what the body stores: the second layer over the 64 hidden units, each the maximum with zero
    of the three first-layer dot products plus the first bias, plus the second bias. -/
theorem body_apply (x0 x1 : Vec Ideal S4000x64 .f32) (x2 : Vec Ideal S4000x3 .f32) (x3 x4 x7 : Vec Ideal S64x64 .f32)
    (x5 : Vec Ideal S3x64 .f32) (x6 x8 : Vec Ideal S1x64 .f32) (p : Fin 4000) (q : Fin 64) :
    k0_pay1 (k0_pay2 x0 x1 x2 x3 x4 x5 x6 x7) (k0_pay3 x8) (ix2 p q)
      = (∑ k : Fin 64, max ((∑ a : Fin 64, x0 (ix2 p a) * x3 (ix2 a k)) + (∑ a : Fin 64, x1 (ix2 p a) * x4 (ix2 a k))
            + (∑ a : Fin 3, x2 (ix2 p a) * x5 (ix2 a k)) + x6 (ix2 (0 : Fin 1) k)) 0 * x7 (ix2 k q))
          + x8 (ix2 (0 : Fin 1) q) := by
  unfold k0_pay1 k0_pay2 k0_pay3
  dsimp only
  simp only [shapeCast_self]
  refine (addf_apply _ _ _).trans ?_
  refine congrArg₂ (· + ·) ((matmul64_apply _ _ p q).trans (Finset.sum_congr rfl fun k _ => ?_)) (broadcastTo_1b_ab_apply x8 _ p q)
  refine congrArg₂ (· * ·) ?_ rfl
  refine (truncf_apply (ψ := .bf16) _ bitsLt_bf16_f32 (ix2 p k)).trans ((maximumf_apply _ _ _).trans ?_)
  refine congrArg₂ max ?_ ((broadcast_apply _ _).trans Ideal.ofBits_zero_f32)
  refine (addf_apply _ _ _).trans (congrArg₂ (· + ·) ?_ (broadcastTo_1b_ab_apply x6 _ p k))
  refine (addf_apply _ _ _).trans (congrArg₂ (· + ·) ?_ (matmul3_apply _ _ p k))
  exact (addf_apply _ _ _).trans (congrArg₂ (· + ·) (matmul64_apply _ _ p k) (matmul64_apply _ _ p k))

/-! ## The body's value is the specification's, given what the blocks hold -/

/-- If row `p` of the three row blocks is row `e` of the gathered arrays and the six small blocks are the weight and
    bias arrays, the body's value at `(p, q)` is the message of edge `e` at column `q`. -/
theorem body_eq_msg (xi xj : Cert.Spec.Mat 1600000 64) (dp : Cert.Spec.Mat 1600000 3) (wxi wxj : Cert.Spec.Mat 64 64)
    (wpos : Cert.Spec.Mat 3 64) (b1 : Cert.Spec.Mat 1 64) (w2 : Cert.Spec.Mat 64 64) (b2 : Cert.Spec.Mat 1 64)
    (x0 x1 : Vec Ideal S4000x64 .f32) (x2 : Vec Ideal S4000x3 .f32) (x3 x4 : Vec Ideal S64x64 .f32)
    (x5 : Vec Ideal S3x64 .f32) (x6 : Vec Ideal S1x64 .f32) (x7 : Vec Ideal S64x64 .f32) (x8 : Vec Ideal S1x64 .f32)
    (e : Fin 1600000) (p : Fin 4000) (q : Fin 64)
    (h0 : ∀ a : Fin 64, x0 (ix2 p a) = xi (ix2 e a)) (h1 : ∀ a : Fin 64, x1 (ix2 p a) = xj (ix2 e a))
    (h2 : ∀ a : Fin 3, x2 (ix2 p a) = dp (ix2 e a))
    (h3 : x3 = wxi) (h4 : x4 = wxj) (h5 : x5 = wpos) (h6 : x6 = b1) (h7 : x7 = w2) (h8 : x8 = b2) :
    k0_pay1 (k0_pay2 x0 x1 x2 x3 x4 x5 x6 x7) (k0_pay3 x8) (ix2 p q)
      = Cert.Spec.msg xi xj dp wxi wxj wpos b1 w2 b2 (ix2 e q) := by
  subst h3 h4 h5 h6 h7 h8
  rw [body_apply]
  simp only [h0, h1, h2]
  rfl

/-! ## The printed index maps, decided once over the 400 grid points -/

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, _)
/-- Window 1's block index at point `t` is `(t, 0)`. -/
theorem idx1 : ∀ t : Fin cfg0.N, win0_1.index t (0 : Fin 2) = t.val ∧ win0_1.index t (1 : Fin 2) = 0 :=
  (by decide +kernel : ∀ t : Fin grid0.N, _)
/-- Window 2's block index at point `t` is `(t, 0)`. -/
theorem idx2 : ∀ t : Fin cfg0.N, win0_2.index t (0 : Fin 2) = t.val ∧ win0_2.index t (1 : Fin 2) = 0 :=
  (by decide +kernel : ∀ t : Fin grid0.N, _)
/-- Window 3's block index is `(0, 0)` at every point. -/
theorem idx3 : ∀ t : Fin cfg0.N, win0_3.index t (0 : Fin 2) = 0 ∧ win0_3.index t (1 : Fin 2) = 0 :=
  (by decide +kernel : ∀ t : Fin grid0.N, _)
/-- Window 4's block index is `(0, 0)` at every point. -/
theorem idx4 : ∀ t : Fin cfg0.N, win0_4.index t (0 : Fin 2) = 0 ∧ win0_4.index t (1 : Fin 2) = 0 :=
  (by decide +kernel : ∀ t : Fin grid0.N, _)
/-- Window 5's block index is `(0, 0)` at every point. -/
theorem idx5 : ∀ t : Fin cfg0.N, win0_5.index t (0 : Fin 2) = 0 ∧ win0_5.index t (1 : Fin 2) = 0 :=
  (by decide +kernel : ∀ t : Fin grid0.N, _)
/-- Window 6's block index is `(0, 0)` at every point. -/
theorem idx6 : ∀ t : Fin cfg0.N, win0_6.index t (0 : Fin 2) = 0 ∧ win0_6.index t (1 : Fin 2) = 0 :=
  (by decide +kernel : ∀ t : Fin grid0.N, _)
/-- Window 7's block index is `(0, 0)` at every point. -/
theorem idx7 : ∀ t : Fin cfg0.N, win0_7.index t (0 : Fin 2) = 0 ∧ win0_7.index t (1 : Fin 2) = 0 :=
  (by decide +kernel : ∀ t : Fin grid0.N, _)
/-- Window 8's block index is `(0, 0)` at every point. -/
theorem idx8 : ∀ t : Fin cfg0.N, win0_8.index t (0 : Fin 2) = 0 ∧ win0_8.index t (1 : Fin 2) = 0 :=
  (by decide +kernel : ∀ t : Fin grid0.N, _)
/-- Window 9's block index at point `t` is `(t, 0)`. -/
theorem idx9 : ∀ t : Fin cfg0.N, win0_9.index t (0 : Fin 2) = t.val ∧ win0_9.index t (1 : Fin 2) = 0 :=
  (by decide +kernel : ∀ t : Fin grid0.N, _)

/-! ## Each input block, read where the output's block says -/

/-- The row of the arrays that row `p` of the block at point `t` is. -/
def row (t : Fin cfg0.N) (p : Fin 4000) : Fin 1600000 :=
  ⟨4000 * t.val + p.val, by have ht : t.val < 400 := lt_of_lt_of_eq t.isLt N_0; have hp := p.isLt; omega⟩

section Region
-- the TensorCore's buffer contents when the region is entered
variable (V : (c : Dev nD) → (b : Ref sig .tc) → Buf (Elt Ideal) ((c : Thread nD τ).loc b))

/-- Row `p` of window 0's block at point `t` is row `4000 t + p` of the source-feature array. -/
theorem blk0_row (c : Dev nD) (t : Fin cfg0.N) (p : Fin 4000) (a : Fin 64) :
    (iblk0 V c 0 t : Vec Ideal S4000x64 .f32) (ix2 p a) = (V c main_v4 : Cert.Spec.Mat 1600000 64) (ix2 (row t p) a) := by
  obtain ⟨e0, e1⟩ := idx0 t
  show V c main_v4 (((cfg0.win 0).blk t).view.emb (ix2 p a)) = V c main_v4 (ix2 (row t p) a)
  refine congrArg (V c main_v4) (funext fun ax => Fin.ext ?_)
  match ax with
  | ⟨0, _⟩ => show win0_0.index t (0 : Fin 2) * 4000 + 1 * p.val = 4000 * t.val + p.val; omega
  | ⟨1, _⟩ => show win0_0.index t (1 : Fin 2) * 64 + 1 * a.val = a.val; omega
/-- Row `p` of window 1's block at point `t` is row `4000 t + p` of the target-feature array. -/
theorem blk1_row (c : Dev nD) (t : Fin cfg0.N) (p : Fin 4000) (a : Fin 64) :
    (iblk0 V c 1 t : Vec Ideal S4000x64 .f32) (ix2 p a) = (V c main_v5 : Cert.Spec.Mat 1600000 64) (ix2 (row t p) a) := by
  obtain ⟨e0, e1⟩ := idx1 t
  show V c main_v5 (((cfg0.win 1).blk t).view.emb (ix2 p a)) = V c main_v5 (ix2 (row t p) a)
  refine congrArg (V c main_v5) (funext fun ax => Fin.ext ?_)
  match ax with
  | ⟨0, _⟩ => show win0_1.index t (0 : Fin 2) * 4000 + 1 * p.val = 4000 * t.val + p.val; omega
  | ⟨1, _⟩ => show win0_1.index t (1 : Fin 2) * 64 + 1 * a.val = a.val; omega
/-- Row `p` of window 2's block at point `t` is row `4000 t + p` of the relative-position array. -/
theorem blk2_row (c : Dev nD) (t : Fin cfg0.N) (p : Fin 4000) (a : Fin 3) :
    (iblk0 V c 2 t : Vec Ideal S4000x3 .f32) (ix2 p a) = (V c main_v8 : Cert.Spec.Mat 1600000 3) (ix2 (row t p) a) := by
  obtain ⟨e0, e1⟩ := idx2 t
  show V c main_v8 (((cfg0.win 2).blk t).view.emb (ix2 p a)) = V c main_v8 (ix2 (row t p) a)
  refine congrArg (V c main_v8) (funext fun ax => Fin.ext ?_)
  match ax with
  | ⟨0, _⟩ => show win0_2.index t (0 : Fin 2) * 4000 + 1 * p.val = 4000 * t.val + p.val; omega
  | ⟨1, _⟩ => show win0_2.index t (1 : Fin 2) * 3 + 1 * a.val = a.val; omega
/-- Window 3's block at every point is the whole first weight block. -/
theorem blk3_whole (c : Dev nD) (t : Fin cfg0.N) :
    (iblk0 V c 3 t : Vec Ideal S64x64 .f32) = (V c main_v9 : Cert.Spec.Mat 64 64) := by
  obtain ⟨e0, e1⟩ := idx3 t
  funext y
  show V c main_v9 (((cfg0.win 3).blk t).view.emb y) = V c main_v9 y
  refine congrArg (V c main_v9) (funext fun ax => Fin.ext ?_)
  match ax with
  | ⟨0, _⟩ => show win0_3.index t (0 : Fin 2) * 64 + 1 * (y 0).val = (y 0).val; omega
  | ⟨1, _⟩ => show win0_3.index t (1 : Fin 2) * 64 + 1 * (y 1).val = (y 1).val; omega
/-- Window 4's block at every point is the whole second weight block. -/
theorem blk4_whole (c : Dev nD) (t : Fin cfg0.N) :
    (iblk0 V c 4 t : Vec Ideal S64x64 .f32) = (V c main_v10 : Cert.Spec.Mat 64 64) := by
  obtain ⟨e0, e1⟩ := idx4 t
  funext y
  show V c main_v10 (((cfg0.win 4).blk t).view.emb y) = V c main_v10 y
  refine congrArg (V c main_v10) (funext fun ax => Fin.ext ?_)
  match ax with
  | ⟨0, _⟩ => show win0_4.index t (0 : Fin 2) * 64 + 1 * (y 0).val = (y 0).val; omega
  | ⟨1, _⟩ => show win0_4.index t (1 : Fin 2) * 64 + 1 * (y 1).val = (y 1).val; omega
/-- Window 5's block at every point is the whole third weight block. -/
theorem blk5_whole (c : Dev nD) (t : Fin cfg0.N) :
    (iblk0 V c 5 t : Vec Ideal S3x64 .f32) = (V c main_v11 : Cert.Spec.Mat 3 64) := by
  obtain ⟨e0, e1⟩ := idx5 t
  funext y
  show V c main_v11 (((cfg0.win 5).blk t).view.emb y) = V c main_v11 y
  refine congrArg (V c main_v11) (funext fun ax => Fin.ext ?_)
  match ax with
  | ⟨0, _⟩ => show win0_5.index t (0 : Fin 2) * 3 + 1 * (y 0).val = (y 0).val; omega
  | ⟨1, _⟩ => show win0_5.index t (1 : Fin 2) * 64 + 1 * (y 1).val = (y 1).val; omega
/-- Window 6's block at every point is the whole first bias row. -/
theorem blk6_whole (c : Dev nD) (t : Fin cfg0.N) :
    (iblk0 V c 6 t : Vec Ideal S1x64 .f32) = (V c main_v12 : Cert.Spec.Mat 1 64) := by
  obtain ⟨e0, e1⟩ := idx6 t
  funext y
  show V c main_v12 (((cfg0.win 6).blk t).view.emb y) = V c main_v12 y
  refine congrArg (V c main_v12) (funext fun ax => Fin.ext ?_)
  match ax with
  | ⟨0, _⟩ => show win0_6.index t (0 : Fin 2) * 1 + 1 * (y 0).val = (y 0).val; omega
  | ⟨1, _⟩ => show win0_6.index t (1 : Fin 2) * 64 + 1 * (y 1).val = (y 1).val; omega
/-- Window 7's block at every point is the whole second-layer matrix. -/
theorem blk7_whole (c : Dev nD) (t : Fin cfg0.N) :
    (iblk0 V c 7 t : Vec Ideal S64x64 .f32) = (V c main_arg5 : Cert.Spec.Mat 64 64) := by
  obtain ⟨e0, e1⟩ := idx7 t
  funext y
  show V c main_arg5 (((cfg0.win 7).blk t).view.emb y) = V c main_arg5 y
  refine congrArg (V c main_arg5) (funext fun ax => Fin.ext ?_)
  match ax with
  | ⟨0, _⟩ => show win0_7.index t (0 : Fin 2) * 64 + 1 * (y 0).val = (y 0).val; omega
  | ⟨1, _⟩ => show win0_7.index t (1 : Fin 2) * 64 + 1 * (y 1).val = (y 1).val; omega
/-- Window 8's block at every point is the whole second bias row. -/
theorem blk8_whole (c : Dev nD) (t : Fin cfg0.N) :
    (iblk0 V c 8 t : Vec Ideal S1x64 .f32) = (V c main_v13 : Cert.Spec.Mat 1 64) := by
  obtain ⟨e0, e1⟩ := idx8 t
  funext y
  show V c main_v13 (((cfg0.win 8).blk t).view.emb y) = V c main_v13 y
  refine congrArg (V c main_v13) (funext fun ax => Fin.ext ?_)
  match ax with
  | ⟨0, _⟩ => show win0_8.index t (0 : Fin 2) * 1 + 1 * (y 0).val = (y 0).val; omega
  | ⟨1, _⟩ => show win0_8.index t (1 : Fin 2) * 64 + 1 * (y 1).val = (y 1).val; omega

/-! ## What point `t` writes back is block `t` of the message array -/

theorem zero_offsets : (![0, 0] : Fin 2 → Nat) = fun _ => 0 := funext fun a => by fin_cases a <;> rfl

/-- The body's value at an index of the block is the message at the index's place in the array. -/
theorem point_eq (c : Dev nD) (t : Fin cfg0.N) (j : S4000x64.Idx) :
    k0_pay1 (k0_pay2 (iblk0 V c 0 t) (iblk0 V c 1 t) (iblk0 V c 2 t) (iblk0 V c 3 t) (iblk0 V c 4 t) (iblk0 V c 5 t) (iblk0 V c 6 t) (iblk0 V c 7 t)) (k0_pay3 (iblk0 V c 8 t)) j
      = Cert.Spec.msg (V c main_v4) (V c main_v5) (V c main_v8) (V c main_v9) (V c main_v10) (V c main_v11) (V c main_v12) (V c main_arg5) (V c main_v13) (((cfg0.win 9).blk t).view.emb j) := by
  obtain ⟨p, q, rfl⟩ : ∃ (p : Fin 4000) (q : Fin 64), j = ix2 p q := ⟨j 0, j 1, eq_ix2 j⟩
  obtain ⟨e0, e1⟩ := idx9 t
  have hemb : ((cfg0.win 9).blk t).view.emb (ix2 p q) = ix2 (row t p) q := funext fun ax => Fin.ext (by
    match ax with
    | ⟨0, _⟩ => show win0_9.index t (0 : Fin 2) * 4000 + 1 * p.val = 4000 * t.val + p.val; omega
    | ⟨1, _⟩ => show win0_9.index t (1 : Fin 2) * 64 + 1 * q.val = q.val; omega)
  refine Eq.trans ?_ (congrArg (Cert.Spec.msg (V c main_v4) (V c main_v5) (V c main_v8) (V c main_v9) (V c main_v10) (V c main_v11) (V c main_v12) (V c main_arg5) (V c main_v13)) hemb.symm)
  exact body_eq_msg (V c main_v4) (V c main_v5) (V c main_v8) (V c main_v9) (V c main_v10) (V c main_v11) (V c main_v12) (V c main_arg5) (V c main_v13)
    (iblk0 V c 0 t) (iblk0 V c 1 t) (iblk0 V c 2 t) (iblk0 V c 3 t) (iblk0 V c 4 t) (iblk0 V c 5 t) (iblk0 V c 6 t) (iblk0 V c 7 t) (iblk0 V c 8 t) (row t p) p q
    (blk0_row V c t p) (blk1_row V c t p) (blk2_row V c t p)
    (blk3_whole V c t) (blk4_whole V c t) (blk5_whole V c t) (blk6_whole V c t) (blk7_whole V c t) (blk8_whole V c t)

/-- WHAT POINT `t` WRITES BACK to the message array is block `t` of `msg` of the arrays the region found. -/
theorem flushed_eq (c : Dev nD) (t : Fin cfg0.N) :
    (dat0 (F := Ideal) V c).flushed 9 t
      = ((cfg0.win 9).blk t).view.read (Elt Ideal) (Cert.Spec.msg (V c main_v4) (V c main_v5) (V c main_v8) (V c main_v9) (V c main_v10) (V c main_v11) (V c main_v12) (V c main_arg5) (V c main_v13)) := by
  show (cfg0.win 9).cut (grid0.coords t) ((dat0 V c).after 9 t) = _
  rw [after0_9]
  unfold out0_9
  rw [View.canon_unit_zero zero_offsets]
  simp only [View.ld_unit_zero (S := S4000x64) zero_offsets, View.ld_unit_zero (S := S4000x3) zero_offsets,
    View.ld_unit_zero (S := S64x64) zero_offsets, View.ld_unit_zero (S := S3x64) zero_offsets,
    View.ld_unit_zero (S := S1x64) zero_offsets]
  funext j
  exact point_eq V c t j

/-! ## The 400 blocks tile the array -/

/-- An index of the message array is in point `t`'s block iff each coordinate is in the block's range on its axis. -/
theorem mem_blk (t : Fin cfg0.N) (i : S1600000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v14).slice (win0_9.rect t)).set ↔ _
  rw [View.set_slice_whole, Rect.mem_set_unit]
  exact Iff.rfl

/-- Row `r` of the array lies in the block of point `r / 4000`, which writes back. -/
theorem covered (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have hq : (i 0).val / 4000 < 400 := by omega
  obtain ⟨t, ht⟩ : ∃ t : Fin cfg0.N, t.val = (i 0).val / 4000 := ⟨⟨(i 0).val / 4000, lt_of_lt_of_eq hq N_0.symm⟩, rfl⟩
  obtain ⟨e0, e1⟩ := idx9 t
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 64 ≤ (i 1).val ∧ (i 1).val < win0_9.index t (1 : Fin 2) * 64 + 64; omega

/-! ## The message array after the region -/

/-- After region 0 the message array is `msg` of the nine arrays as the region found them. -/
theorem region0_array (c : Dev nD) :
    (Gen.dat0 (F := Ideal) V c).arrAt 9 cfg0.N
      = Cert.Spec.msg (V c main_v4) (V c main_v5) (V c main_v8) (V c main_v9) (V c main_v10) (V c main_v11) (V c main_v12) (V c main_arg5) (V c main_v13) :=
  (dat0 (F := Ideal) V c).arrAt_eq_of_cover 9 (Cert.Spec.msg (V c main_v4) (V c main_v5) (V c main_v8) (V c main_v9) (V c main_v10) (V c main_v11) (V c main_v12) (V c main_arg5) (V c main_v13))
    (fun t _ => flushed_eq V c t) covered

end Region

end Cert.KernelIdeal.MsgValue

end
-- ==== Proof.UpdValue.lean ====
/-
  The update kernel's output array after its region, read off the region's blocks.

  The region has 20 grid points. At point `t` the two row-block inputs hold rows `5000 t … 5000 t + 4999` of the node
  features and of the aggregated messages; the two first-layer weight matrices, the second matrix and the two bias rows
  are whole at every point. At row `p`, column `q` of its output block the body stores `relu` of two dot products plus
  a bias row, taken through the second matrix, plus the second bias row: on the extended reals a format change is the
  identity and a matrix product into the zero accumulator is the sum of the products. So point `t` writes back block
  `t` of `Cert.Spec.upd` of the seven arrays the region found; the 20 blocks tile the 100000 rows (row `r` lies in
  block `r / 5000`), and the array ends holding `Cert.Spec.upd` of those arrays.
-/
import proofs.«425533_j65094524339280_1_alg».proof.Proof.Gen.KernelIdeal.Frame
import proofs.«425533_j65094524339280_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of the update kernel's body at an index -/

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] × [64,64] product into the zero accumulator, at row `p` and column `q`: the dot product of row `p`
    of the left operand with column `q` of the right one. -/
theorem matmul_zero_at (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]

/-! ## The body's result at an index -/

/-- Row `p`, column `q` of what the update kernel's body stores: two dot products and the bias row through `relu`,
    through the second matrix, plus its bias row. Format changes are the identity on extended reals. -/
theorem pay_apply (x0 x1 : Vec Ideal S5000x64 .f32) (x2 x3 : Vec Ideal S64x64 .f32) (x4 : Vec Ideal S1x64 .f32)
    (x5 : Vec Ideal S64x64 .f32) (x6 : Vec Ideal S1x64 .f32) (p : Fin 5000) (q : Fin 64) :
    k1_pay1 (F := Ideal) x0 x1 x2 x3 x4 x5 x6 (ix2 p q)
      = (∑ k : Fin 64, max ((∑ t : Fin 64, x0 (ix2 p t) * x2 (ix2 t k)) + (∑ t : Fin 64, x1 (ix2 p t) * x3 (ix2 t k))
          + x4 (ix2 (0 : Fin 1) k)) 0 * x5 (ix2 k q)) + x6 (ix2 (0 : Fin 1) q) := by
  unfold k1_pay1
  simp only [shapeCast_self]
  refine (addf_apply _ _ (ix2 p q)).trans ?_
  rw [matmul_zero_at, broadcastTo_1b_ab_apply]
  refine congrArg (· + x6 (ix2 (0 : Fin 1) q)) (Finset.sum_congr rfl fun k _ => ?_)
  refine congrArg (· * x5 (ix2 k q)) ?_
  refine (truncf_apply (ψ := .bf16) _ bitsLt_bf16_f32 (ix2 p k)).trans ?_
  refine (maximumf_apply _ _ (ix2 p k)).trans ?_
  refine congrArg₂ max ?_ Ideal.ofBits_zero_f32
  refine (addf_apply _ _ (ix2 p k)).trans ?_
  rw [broadcastTo_1b_ab_apply]
  refine congrArg (· + x4 (ix2 (0 : Fin 1) k)) ?_
  refine (addf_apply _ _ (ix2 p k)).trans ?_
  rw [matmul_zero_at, matmul_zero_at]
  rfl

/-! ## One point of a block against the specification -/

/-- If the seven loaded blocks agree with seven arrays — the two row blocks at row `n` of their arrays, the weights and
    bias rows everywhere — then row `p`, column `q` of the body's result is the specification at row `n`, column `q`. -/
theorem point_eq (X A : Cert.Spec.Mat 100000 64) (Wx Wa : Cert.Spec.Mat 64 64) (B1 : Cert.Spec.Mat 1 64)
    (W2 : Cert.Spec.Mat 64 64) (B2 : Cert.Spec.Mat 1 64)
    (x0 x1 : Vec Ideal S5000x64 .f32) (x2 x3 : Vec Ideal S64x64 .f32) (x4 : Vec Ideal S1x64 .f32)
    (x5 : Vec Ideal S64x64 .f32) (x6 : Vec Ideal S1x64 .f32) (n : Fin 100000) (p : Fin 5000) (q : Fin 64)
    (h0 : ∀ a : Fin 64, x0 (ix2 p a) = X (ix2 n a)) (h1 : ∀ a : Fin 64, x1 (ix2 p a) = A (ix2 n a))
    (h2 : ∀ a b : Fin 64, x2 (ix2 a b) = Wx (ix2 a b)) (h3 : ∀ a b : Fin 64, x3 (ix2 a b) = Wa (ix2 a b))
    (h4 : ∀ b : Fin 64, x4 (ix2 (0 : Fin 1) b) = B1 (ix2 (0 : Fin 1) b))
    (h5 : ∀ a b : Fin 64, x5 (ix2 a b) = W2 (ix2 a b))
    (h6 : ∀ b : Fin 64, x6 (ix2 (0 : Fin 1) b) = B2 (ix2 (0 : Fin 1) b)) :
    k1_pay1 (F := Ideal) x0 x1 x2 x3 x4 x5 x6 (ix2 p q) = Cert.Spec.upd X A Wx Wa B1 W2 B2 (ix2 n q) := by
  rw [pay_apply]
  show _ = (∑ k : Fin 64, max ((∑ t : Fin 64, X (ix2 n t) * Wx (ix2 t k)) + (∑ t : Fin 64, A (ix2 n t) * Wa (ix2 t k))
      + B1 (ix2 (0 : Fin 1) k)) 0 * W2 (ix2 k q)) + B2 (ix2 (0 : Fin 1) q)
  simp only [h0, h1, h2, h3, h4, h5, h6]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-block inputs and the output sit at block row `t`,
    block column 0; the weights and bias rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ### Each input block, read where its window's index map puts it

The two row-block inputs at point `t` are rows `5000 t … 5000 t + 4999` of their arrays; the weight matrices and the
bias rows are their whole arrays at every point. -/

theorem blk0_apply (c : Dev nD) (t : Fin cfg1.N) (p : Fin 5000) (a : Fin 64) (n : Fin 100000)
    (hn : n.val = t.val * 5000 + p.val) :
    (iblk1 V c 0 t : Vec Ideal S5000x64 .f32) (ix2 p a) = (V c main_arg0 : Cert.Spec.Mat 100000 64) (ix2 n a) := by
  obtain ⟨e0, e1, -⟩ := idx_facts t
  show V c main_arg0 (((cfg1.win 0).blk t).view.emb (ix2 p a)) = V c main_arg0 (ix2 n a)
  refine congrArg (V c main_arg0) (funext fun d => Fin.ext ?_)
  match d with
  | ⟨0, _⟩ => show win1_0.index t (0 : Fin 2) * 5000 + 1 * p.val = n.val; rw [e0, hn]; omega
  | ⟨1, _⟩ => show win1_0.index t (1 : Fin 2) * 64 + 1 * a.val = a.val; rw [e1]; omega

theorem blk1_apply (c : Dev nD) (t : Fin cfg1.N) (p : Fin 5000) (a : Fin 64) (n : Fin 100000)
    (hn : n.val = t.val * 5000 + p.val) :
    (iblk1 V c 1 t : Vec Ideal S5000x64 .f32) (ix2 p a) = (V c main_v25 : Cert.Spec.Mat 100000 64) (ix2 n a) := by
  obtain ⟨-, -, e0, e1, -⟩ := idx_facts t
  show V c main_v25 (((cfg1.win 1).blk t).view.emb (ix2 p a)) = V c main_v25 (ix2 n a)
  refine congrArg (V c main_v25) (funext fun d => Fin.ext ?_)
  match d with
  | ⟨0, _⟩ => show win1_1.index t (0 : Fin 2) * 5000 + 1 * p.val = n.val; rw [e0, hn]; omega
  | ⟨1, _⟩ => show win1_1.index t (1 : Fin 2) * 64 + 1 * a.val = a.val; rw [e1]; omega

theorem blk2_apply (c : Dev nD) (t : Fin cfg1.N) (a b : Fin 64) :
    (iblk1 V c 2 t : Vec Ideal S64x64 .f32) (ix2 a b) = (V c main_v26 : Cert.Spec.Mat 64 64) (ix2 a b) := by
  obtain ⟨-, -, -, -, e0, e1, -⟩ := idx_facts t
  show V c main_v26 (((cfg1.win 2).blk t).view.emb (ix2 a b)) = V c main_v26 (ix2 a b)
  refine congrArg (V c main_v26) (funext fun d => Fin.ext ?_)
  match d with
  | ⟨0, _⟩ => show win1_2.index t (0 : Fin 2) * 64 + 1 * a.val = a.val; rw [e0]; omega
  | ⟨1, _⟩ => show win1_2.index t (1 : Fin 2) * 64 + 1 * b.val = b.val; rw [e1]; omega

theorem blk3_apply (c : Dev nD) (t : Fin cfg1.N) (a b : Fin 64) :
    (iblk1 V c 3 t : Vec Ideal S64x64 .f32) (ix2 a b) = (V c main_v27 : Cert.Spec.Mat 64 64) (ix2 a b) := by
  obtain ⟨-, -, -, -, -, -, e0, e1, -⟩ := idx_facts t
  show V c main_v27 (((cfg1.win 3).blk t).view.emb (ix2 a b)) = V c main_v27 (ix2 a b)
  refine congrArg (V c main_v27) (funext fun d => Fin.ext ?_)
  match d with
  | ⟨0, _⟩ => show win1_3.index t (0 : Fin 2) * 64 + 1 * a.val = a.val; rw [e0]; omega
  | ⟨1, _⟩ => show win1_3.index t (1 : Fin 2) * 64 + 1 * b.val = b.val; rw [e1]; omega

theorem blk4_apply (c : Dev nD) (t : Fin cfg1.N) (b : Fin 64) :
    (iblk1 V c 4 t : Vec Ideal S1x64 .f32) (ix2 (0 : Fin 1) b) = (V c main_v28 : Cert.Spec.Mat 1 64) (ix2 (0 : Fin 1) b) := by
  obtain ⟨-, -, -, -, -, -, -, -, e0, e1, -⟩ := idx_facts t
  show V c main_v28 (((cfg1.win 4).blk t).view.emb (ix2 (0 : Fin 1) b)) = V c main_v28 (ix2 (0 : Fin 1) b)
  refine congrArg (V c main_v28) (funext fun d => Fin.ext ?_)
  match d with
  | ⟨0, _⟩ => show win1_4.index t (0 : Fin 2) * 1 + 1 * 0 = 0; rw [e0]
  | ⟨1, _⟩ => show win1_4.index t (1 : Fin 2) * 64 + 1 * b.val = b.val; rw [e1]; omega

theorem blk5_apply (c : Dev nD) (t : Fin cfg1.N) (a b : Fin 64) :
    (iblk1 V c 5 t : Vec Ideal S64x64 .f32) (ix2 a b) = (V c main_arg9 : Cert.Spec.Mat 64 64) (ix2 a b) := by
  obtain ⟨-, -, -, -, -, -, -, -, -, -, e0, e1, -⟩ := idx_facts t
  show V c main_arg9 (((cfg1.win 5).blk t).view.emb (ix2 a b)) = V c main_arg9 (ix2 a b)
  refine congrArg (V c main_arg9) (funext fun d => Fin.ext ?_)
  match d with
  | ⟨0, _⟩ => show win1_5.index t (0 : Fin 2) * 64 + 1 * a.val = a.val; rw [e0]; omega
  | ⟨1, _⟩ => show win1_5.index t (1 : Fin 2) * 64 + 1 * b.val = b.val; rw [e1]; omega

theorem blk6_apply (c : Dev nD) (t : Fin cfg1.N) (b : Fin 64) :
    (iblk1 V c 6 t : Vec Ideal S1x64 .f32) (ix2 (0 : Fin 1) b) = (V c main_v29 : Cert.Spec.Mat 1 64) (ix2 (0 : Fin 1) b) := by
  obtain ⟨-, -, -, -, -, -, -, -, -, -, -, -, e0, e1, -⟩ := idx_facts t
  show V c main_v29 (((cfg1.win 6).blk t).view.emb (ix2 (0 : Fin 1) b)) = V c main_v29 (ix2 (0 : Fin 1) b)
  refine congrArg (V c main_v29) (funext fun d => Fin.ext ?_)
  match d with
  | ⟨0, _⟩ => show win1_6.index t (0 : Fin 2) * 1 + 1 * 0 = 0; rw [e0]
  | ⟨1, _⟩ => show win1_6.index t (1 : Fin 2) * 64 + 1 * b.val = b.val; rw [e1]; omega

/-! ### What a point writes back, the cover, and the array -/

/-- What point `t` writes back to the output's array is block `t` of the specification of the seven arrays as the
    region finds them. -/
theorem flushed_eq (c : Dev nD) (t : Fin cfg1.N) :
    (dat1 V c).flushed 7 t = ((cfg1.win 7).blk t).view.read (Elt Ideal) (Cert.Spec.upd (V c main_arg0) (V c main_v25) (V c main_v26) (V c main_v27) (V c main_v28) (V c main_arg9) (V c main_v29)) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  obtain ⟨-, -, -, -, -, -, -, -, -, -, -, -, -, -, e0, e1⟩ := idx_facts t
  have ht : t.val < 20 := lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hemb : ((cfg1.win 7).blk t).view.emb (ix2 p q) = ix2 (⟨t.val * 5000 + p.val, by omega⟩ : Fin 100000) q :=
    funext fun d => Fin.ext (by
      match d with
      | ⟨0, _⟩ => show win1_7.index t (0 : Fin 2) * 5000 + 1 * p.val = t.val * 5000 + p.val; rw [e0]; omega
      | ⟨1, _⟩ => show win1_7.index t (1 : Fin 2) * 64 + 1 * q.val = q.val; rw [e1]; omega)
  show k1_pay1 (F := Ideal) (iblk1 V c 0 t) (iblk1 V c 1 t) (iblk1 V c 2 t) (iblk1 V c 3 t) (iblk1 V c 4 t) (iblk1 V c 5 t) (iblk1 V c 6 t) (ix2 p q)
    = (Cert.Spec.upd (V c main_arg0) (V c main_v25) (V c main_v26) (V c main_v27) (V c main_v28) (V c main_arg9) (V c main_v29)) (((cfg1.win 7).blk t).view.emb (ix2 p q))
  refine (point_eq (V c main_arg0) (V c main_v25) (V c main_v26) (V c main_v27) (V c main_v28) (V c main_arg9) (V c main_v29)
    (iblk1 V c 0 t) (iblk1 V c 1 t) (iblk1 V c 2 t) (iblk1 V c 3 t) (iblk1 V c 4 t) (iblk1 V c 5 t) (iblk1 V c 6 t)
    ⟨t.val * 5000 + p.val, by omega⟩ p q
    (fun a => blk0_apply V c t p a _ rfl) (fun a => blk1_apply V c t p a _ rfl)
    (fun a b => blk2_apply V c t a b) (fun a b => blk3_apply V c t a b) (fun b => blk4_apply V c t b)
    (fun a b => blk5_apply V c t a b) (fun b => blk6_apply V c t b)).trans ?_
  exact congrArg (Cert.Spec.upd (V c main_arg0) (V c main_v25) (V c main_v26) (V c main_v27) (V c main_v28) (V c main_arg9) (V c main_v29)) hemb.symm

/-- An index of the output's array is in point `t`'s block iff each coordinate is in the block's range on its axis. -/
theorem mem_blk (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v30).slice (win1_7.rect t)).set ↔ _
  rw [View.set_slice_whole, Rect.mem_set_unit]
  exact Iff.rfl

/-- Every index of the output's array is in the block of the point its row's quotient by 5000 names. -/
theorem covered (i : S100000x64.Idx) :
    ∃ t : Fin cfg1.N, (cfg1.win 7).flush t = true ∧ i ∈ ((cfg1.win 7).blk t).view.set := by
  have hi0 : (i 0).val < 100000 := idx2_lt0 i
  have hi1 : (i 1).val < 64 := idx2_lt1 i
  have ht : (i 0).val / 5000 < cfg1.N := lt_of_lt_of_eq (by omega : (i 0).val / 5000 < 20) N_1.symm
  obtain ⟨-, -, -, -, -, -, -, -, -, -, -, -, -, -, e0, e1⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 64 ≤ (i 1).val ∧ (i 1).val < win1_7.index ⟨(i 0).val / 5000, ht⟩ (1 : Fin 2) * 64 + 64
    rw [e1]; omega

/-- The output's array after the region: the update network of the seven arrays the region found. -/
theorem region1_array (c : Dev nD) : (Gen.dat1 (F := Ideal) V c).arrAt 7 cfg1.N = Cert.Spec.upd (V c main_arg0) (V c main_v25) (V c main_v26) (V c main_v27) (V c main_v28) (V c main_arg9) (V c main_v29) :=
  (dat1 V c).arrAt_eq_of_cover 7 (Cert.Spec.upd (V c main_arg0) (V c main_v25) (V c main_v26) (V c main_v27) (V c main_v28) (V c main_arg9) (V c main_v29)) (fun t _ => flushed_eq V c t) covered

end Cert.KernelIdeal.UpdValue

end
-- ==== Proof.KernelValue.lean ====
/-
  What the kernel program leaves in its result buffer, as ONE function of the eleven argument arrays.

  The message region's array is the message network (Cert.Spec.msg) of the three gathered row arrays, the row
  blocks of the first weight matrix and the two bias rows; the host then takes the mean message per receiving
  node; the update region's array is the update network (Cert.Spec.upd) of the node features, that mean and the
  second network's weights. Each array is what its region's write-backs leave (the region modules), at the
  entry contents the host stretches compute (the host-side module).
-/
import proofs.«425533_j65094524339280_1_alg».proof.Proof.HostSide
import proofs.«425533_j65094524339280_1_alg».proof.Proof.MsgValue
import proofs.«425533_j65094524339280_1_alg».proof.Proof.UpdValue
import Idealize.ShloMosaic.PureOps.Ideal

set_option maxRecDepth 16384

noncomputable section

namespace Cert.KernelIdeal.KernelValue

open Cert.KernelIdeal Cert.KernelIdeal.Gen Cert.KernelIdeal.TakeFn Cert.KernelIdeal.HostSide
open Idealize.ShloMosaic Idealize.ShloMosaic.TcCoe Idealize.SL.Sem

/-- The message of every edge, from the argument arrays: the kernel program's gathers, then the message network. -/
def messages (a0 : FVec Ideal S100000x64 .f32) (a1 : IVec S2x1600000 32) (a2 : FVec Ideal S100000x3 .f32)
    (a3 : FVec Ideal S131x64 .f32) (a4 : FVec Ideal S64 .f32) (a5 : FVec Ideal S64x64 .f32) (a6 : FVec Ideal S64 .f32) :
    FVec Ideal S1600000x64 .f32 :=
  Cert.Spec.msg (take64 a0 (edgeRow0 a1)) (take64 a0 (edgeRow1 a1))
    (subf (F := Ideal) (take3 a2 (edgeRow1 a1)) (take3 a2 (edgeRow0 a1)))
    (extractStridedSlice S64x64 ![0, 0] a3 slices_S131x64_S64x64_0_0) (extractStridedSlice S64x64 ![64, 0] a3 slices_S131x64_S64x64_64_0)
    (extractStridedSlice S3x64 ![128, 0] a3 slices_S131x64_S3x64_128_0)
    (shapeCast S1x64 a4 shapeCasts_S64_S1x64) a5 (shapeCast S1x64 a6 shapeCasts_S64_S1x64)

/-- The kernel program's result, from the argument arrays. -/
def value (a0 : FVec Ideal S100000x64 .f32) (a1 : IVec S2x1600000 32) (a2 : FVec Ideal S100000x3 .f32)
    (a3 : FVec Ideal S131x64 .f32) (a4 : FVec Ideal S64 .f32) (a5 : FVec Ideal S64x64 .f32) (a6 : FVec Ideal S64 .f32)
    (a7 : FVec Ideal S128x64 .f32) (a8 : FVec Ideal S64 .f32) (a9 : FVec Ideal S64x64 .f32) (a10 : FVec Ideal S64 .f32) :
    FVec Ideal S100000x64 .f32 :=
  Cert.Spec.upd a0 (aggregate (F := Ideal) (messages a0 a1 a2 a3 a4 a5 a6) (edgeRow0 a1))
    (extractStridedSlice S64x64 ![0, 0] a7 slices_S128x64_S64x64_0_0) (extractStridedSlice S64x64 ![64, 0] a7 slices_S128x64_S64x64_64_0)
    (shapeCast S1x64 a8 shapeCasts_S64_S1x64) a9 (shapeCast S1x64 a10 shapeCasts_S64_S1x64)

variable (m : (ℓ : Loc nD τ sig) → Buf (Elt Ideal) ℓ) (ρ : Dev nD → PrngReg)

/-- The message region's result array, at the boundary after the region. -/
theorem msg_array (c : Dev nD) : W7 (F := Ideal) m ρ c (Proc.devRef .tc main_v14)
    = messages (arg m c main_arg0) (arg m c main_arg1) (arg m c main_arg2) (arg m c main_arg3) (arg m c main_arg4)
        (arg m c main_arg5) (arg m c main_arg6) := by
  have h : W7 (F := Ideal) m ρ c (Proc.devRef .tc main_v14) = _ :=
    (W7_arr m ρ c 9).trans (MsgValue.region0_array (V6 m ρ) c)
  rw [V6_v4 m ρ c, V6_v5 m ρ c, V6_v8 m ρ c, V6_v9 m ρ c, V6_v10 m ρ c, V6_v11 m ρ c, V6_v12 m ρ c, V6_arg5 m ρ c,
    V6_v13 m ρ c] at h
  exact h

/-- The result buffer at the last boundary is the value of the argument arrays. -/
theorem result_value (c : Dev nD) : W9 (F := Ideal) m ρ c (Proc.devRef .tc main_v30)
    = value (arg m c main_arg0) (arg m c main_arg1) (arg m c main_arg2) (arg m c main_arg3) (arg m c main_arg4)
        (arg m c main_arg5) (arg m c main_arg6) (arg m c main_arg7) (arg m c main_arg8) (arg m c main_arg9) (arg m c main_arg10) := by
  have h : W9 (F := Ideal) m ρ c (Proc.devRef .tc main_v30) = _ :=
    (W9_arr m ρ c 7).trans (UpdValue.region1_array (V8 m ρ) c)
  rw [V8_arg0 m ρ c, V8_v25 m ρ c, msg_array m ρ c, V8_v26 m ρ c, V8_v27 m ρ c, V8_v28 m ρ c, V8_arg9 m ρ c, V8_v29 m ρ c] at h
  exact h

end Cert.KernelIdeal.KernelValue

end
-- ==== Proof.RefNets.lean ====
/-
  The reference's two small networks are the specification's.

  The reference joins the gathered rows (64 + 64 + 3 columns for a message, 64 + 64 for an update) into one
  array and takes ONE dot product over the joined columns; the specification takes the sum of the blocks' dot
  products against the matching row blocks of the weight matrix. Column `a` of a joined array is column `a` of
  the first piece when `a < 64`, column `a - 64` of the second when `64 ≤ a < 128`, and column `a - 128` of
  the third otherwise, so cutting the sum over the joined columns at 64 and 128 gives the blocks' sums term by
  term. The bias is a 64-vector spread over the rows; `relu` is the maximum against the zero constant. Nothing
  here needs a value to be finite: a finite sum on the extended reals may be regrouped freely.
-/
import proofs.«425533_j65094524339280_1_alg».proof.Proof.Gen.ReferenceIdeal.Read
import proofs.«425533_j65094524339280_1_alg».proof.Proof.Spec
import Idealize.ShloMosaic.Lib.Pipeline.Value
import Idealize.ShloMosaic.PureOps.Ideal.Laws

noncomputable section

namespace Cert.ReferenceIdeal.RefNets

open Cert.ReferenceIdeal Cert.ReferenceIdeal.Gen Idealize.ShloMosaic Idealize.ShloMosaic.ValueIdx Cert.Spec

/-! ## Layout: a row block of a weight matrix, a bias row, a joined array at a column -/

/-- An entry of a 64-column matrix whose row is `off + a` is entry `a` of the row block starting at `off`. -/
theorem rowBlock_at {R : Nat} (r off : Nat) (h : off + r ≤ R) (w : Mat R 64) (j : (⟨2, ![R, 64]⟩ : Shape).Idx)
    (a : Fin r) (k : Fin 64) (h0 : (j 0).val = off + a.val) (h1 : (j 1).val = k.val) :
    w j = rowBlock r off h w (ix2 a k) := by
  unfold rowBlock
  exact congrArg w (funext fun b => Fin.ext (by
    match b with
    | ⟨0, _⟩ => exact h0
    | ⟨1, _⟩ => exact h1))

/-- A 64-vector at the coordinate `k` is its one-row matrix at column `k`. -/
theorem biasRow_at (b : (⟨1, ![64]⟩ : Shape).Idx → EReal) (j : (⟨1, ![64]⟩ : Shape).Idx) (k : Fin 64)
    (h0 : (j 0).val = k.val) : b j = biasRow b (ix2 (0 : Fin 1) k) := by
  unfold biasRow
  exact congrArg b (funext fun c => Fin.ext (by
    match c with
    | ⟨0, _⟩ => exact h0))

section Join3
variable (u v : (⟨S1600000x64, .f32⟩ : BufTy).Contents (Elt Ideal)) (w : (⟨S1600000x3, .f32⟩ : BufTy).Contents (Elt Ideal))
  (j : S1600000x131.Idx) (e : Fin 1600000)

/-- Column `a < 64` of the three joined pieces is column `a` of the first. -/
theorem join3_fst (a : Fin 64) (h0 : (j 0).val = e.val) (h1 : (j 1).val = a.val) :
    concatenate S1600000x131 1 [⟨S1600000x64, u⟩, ⟨S1600000x64, v⟩, ⟨S1600000x3, w⟩]
      concatenates_S1600000x64_S1600000x64_S1600000x3_S1600000x131_d1 j = u (ix2 e a) := by
  refine concatenate_apply_piece (1 : Fin S1600000x131.rank) _ _ j 0 (by simp) S1600000x64 u rfl rfl 0 rfl (ix2 e a) ?_ ?_
  · intro b hb
    match b with
    | ⟨0, _⟩ => exact h0.symm
    | ⟨1, _⟩ => exact absurd rfl hb
  · show 0 + a.val = (j 1).val
    omega

/-- Column `64 + a` of the three joined pieces is column `a` of the second. -/
theorem join3_snd (a : Fin 64) (h0 : (j 0).val = e.val) (h1 : (j 1).val = 64 + a.val) :
    concatenate S1600000x131 1 [⟨S1600000x64, u⟩, ⟨S1600000x64, v⟩, ⟨S1600000x3, w⟩]
      concatenates_S1600000x64_S1600000x64_S1600000x3_S1600000x131_d1 j = v (ix2 e a) := by
  refine concatenate_apply_piece (1 : Fin S1600000x131.rank) _ _ j 1 (by simp) S1600000x64 v rfl rfl 64 rfl (ix2 e a) ?_ ?_
  · intro b hb
    match b with
    | ⟨0, _⟩ => exact h0.symm
    | ⟨1, _⟩ => exact absurd rfl hb
  · show 64 + a.val = (j 1).val
    omega

/-- Column `128 + a` of the three joined pieces is column `a` of the third. -/
theorem join3_thd (a : Fin 3) (h0 : (j 0).val = e.val) (h1 : (j 1).val = 128 + a.val) :
    concatenate S1600000x131 1 [⟨S1600000x64, u⟩, ⟨S1600000x64, v⟩, ⟨S1600000x3, w⟩]
      concatenates_S1600000x64_S1600000x64_S1600000x3_S1600000x131_d1 j = w (ix2 e a) := by
  refine concatenate_apply_piece (1 : Fin S1600000x131.rank) _ _ j 2 (by simp) S1600000x3 w rfl rfl 128 rfl (ix2 e a) ?_ ?_
  · intro b hb
    match b with
    | ⟨0, _⟩ => exact h0.symm
    | ⟨1, _⟩ => exact absurd rfl hb
  · show 128 + a.val = (j 1).val
    omega

end Join3

/-! ## The message network -/

section Message
variable (x0 : (⟨S100000x64, .f32⟩ : BufTy).Contents (Elt Ideal)) (x1 : (⟨S2x1600000, .i32⟩ : BufTy).Contents (Elt Ideal)) (x2 : (⟨S100000x3, .f32⟩ : BufTy).Contents (Elt Ideal)) (x3 : (⟨S131x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))

/-- The reference's hidden pre-activation of edge `e`, unit `k`: its one dot product over the 131 joined columns,
    cut at 64 and 128, is the three blocks' dot products; the bias is the vector at `k`. -/
theorem msgHid_eq (e : Fin 1600000) (k : Fin 64) :
    Read.val_main_v37 (F := Ideal) x0 x1 x2 x3 x4 (ix2 e k)
      = msgHid (Read.val_main_v10 x0 x1) (Read.val_main_v17 x0 x1) (Read.val_main_v32 x1 x2)
          (rowBlock 64 0 (by norm_num) x3) (rowBlock 64 64 (by norm_num) x3) (rowBlock 3 128 (by norm_num) x3)
          (biasRow x4) e k := by
  rw [Read.val_main_v37_apply, Read.val_main_v34_apply, Read.val_main_v36_apply, Read.val_main_v35_apply,
    Ideal.addf_def, sum131_split]
  unfold msgHid Read.val_main_v33
  refine congrArg₂ (· + ·) (congrArg₂ (· + ·) (congrArg₂ (· + ·) ?_ ?_) ?_) ?_
  · refine Finset.sum_congr rfl fun a _ => congrArg₂ (· * ·) ?_ ?_
    · exact join3_fst _ _ _ _ e a rfl rfl
    · exact rowBlock_at 64 0 _ x3 _ a k (Nat.zero_add _).symm rfl
  · refine Finset.sum_congr rfl fun a _ => congrArg₂ (· * ·) ?_ ?_
    · exact join3_snd _ _ _ _ e a rfl rfl
    · exact rowBlock_at 64 64 _ x3 _ a k rfl rfl
  · refine Finset.sum_congr rfl fun a _ => congrArg₂ (· * ·) ?_ ?_
    · exact join3_thd _ _ _ _ e a rfl rfl
    · exact rowBlock_at 3 128 _ x3 _ a k rfl rfl
  · exact biasRow_at x4 _ k rfl

/-- The reference's message array is the specification's message network of the gathered rows. -/
theorem msg_eq :
    Read.val_main_v42 (F := Ideal) x0 x1 x2 x3 x4 x5 x6
      = msg (Read.val_main_v10 x0 x1) (Read.val_main_v17 x0 x1) (Read.val_main_v32 x1 x2)
          (rowBlock 64 0 (by norm_num) x3) (rowBlock 64 64 (by norm_num) x3) (rowBlock 3 128 (by norm_num) x3)
          (biasRow x4) x5 (biasRow x6) := by
  funext i
  obtain ⟨e, d, rfl⟩ : ∃ (e : Fin 1600000) (d : Fin 64), i = ix2 e d := ⟨i 0, i 1, eq_ix2 i⟩
  rw [Read.val_main_v42_apply, Read.val_main_v39_apply, Read.val_main_v41_apply, Read.val_main_v40_apply,
    Ideal.addf_def]
  unfold msg
  refine congrArg₂ (· + ·) (Finset.sum_congr rfl fun k _ => congrArg₂ (· * ·) ?_ ?_) ?_
  · have el : Read.lidx_main_v39 (ix2 e d) k = ix2 e k := funext fun b => Fin.ext (by
      match b with
      | ⟨0, _⟩ => rfl
      | ⟨1, _⟩ => rfl)
    rw [el, Read.val_main_v38_apply, Read.val_main_call0_v0_apply, Read.val_main_call0_cst_apply,
      Ideal.maximumf_def, Ideal.ofBits_def, Ideal.ofBits_zero_f32, msgHid_eq]
  · exact congrArg x5 (funext fun b => Fin.ext (by
      match b with
      | ⟨0, _⟩ => rfl
      | ⟨1, _⟩ => rfl))
  · exact biasRow_at x6 _ d rfl

end Message

/-! ## The update network -/

section Join2
variable (u v : (⟨S100000x64, .f32⟩ : BufTy).Contents (Elt Ideal)) (j : S100000x128.Idx) (n : Fin 100000)

/-- Column `a < 64` of the two joined pieces is column `a` of the first. -/
theorem join2_fst (a : Fin 64) (h0 : (j 0).val = n.val) (h1 : (j 1).val = a.val) :
    concatenate S100000x128 1 [⟨S100000x64, u⟩, ⟨S100000x64, v⟩]
      concatenates_S100000x64_S100000x64_S100000x128_d1 j = u (ix2 n a) := by
  refine concatenate_pair_apply_left (1 : Fin S100000x128.rank) u v _ j rfl (ix2 n a) ?_
  intro b
  match b with
  | ⟨0, _⟩ => exact h0.symm
  | ⟨1, _⟩ => exact h1.symm

/-- Column `64 + a` of the two joined pieces is column `a` of the second. -/
theorem join2_snd (a : Fin 64) (h0 : (j 0).val = n.val) (h1 : (j 1).val = 64 + a.val) :
    concatenate S100000x128 1 [⟨S100000x64, u⟩, ⟨S100000x64, v⟩]
      concatenates_S100000x64_S100000x64_S100000x128_d1 j = v (ix2 n a) := by
  refine concatenate_pair_apply_right (1 : Fin S100000x128.rank) u v _ j rfl rfl (ix2 n a) ?_ ?_
  · intro b hb
    match b with
    | ⟨0, _⟩ => exact h0.symm
    | ⟨1, _⟩ => exact absurd rfl hb
  · show a.val + 64 = (j 1).val
    omega

end Join2

section Update
variable (x0 : (⟨S100000x64, .f32⟩ : BufTy).Contents (Elt Ideal)) (x1 : (⟨S2x1600000, .i32⟩ : BufTy).Contents (Elt Ideal)) (x2 : (⟨S100000x3, .f32⟩ : BufTy).Contents (Elt Ideal)) (x3 : (⟨S131x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))

/-- The reference's hidden pre-activation of node `n`, unit `k`: its one dot product over the 128 joined columns,
    cut at 64, is the two blocks' dot products; the bias is the vector at `k`. -/
theorem updHid_eq (n : Fin 100000) (k : Fin 64) :
    Read.val_main_v58 (F := Ideal) x0 x1 x2 x3 x4 x5 x6 x7 x8 (ix2 n k)
      = updHid x0 (Read.val_main_v53 x0 x1 x2 x3 x4 x5 x6)
          (rowBlock 64 0 (by norm_num) x7) (rowBlock 64 64 (by norm_num) x7) (biasRow x8) n k := by
  rw [Read.val_main_v58_apply, Read.val_main_v55_apply, Read.val_main_v57_apply, Read.val_main_v56_apply,
    Ideal.addf_def, sum128_split]
  unfold updHid Read.val_main_v54
  refine congrArg₂ (· + ·) (congrArg₂ (· + ·) ?_ ?_) ?_
  · refine Finset.sum_congr rfl fun a _ => congrArg₂ (· * ·) ?_ ?_
    · exact join2_fst _ _ _ n a rfl rfl
    · exact rowBlock_at 64 0 _ x7 _ a k (Nat.zero_add _).symm rfl
  · refine Finset.sum_congr rfl fun a _ => congrArg₂ (· * ·) ?_ ?_
    · exact join2_snd _ _ _ n a rfl rfl
    · exact rowBlock_at 64 64 _ x7 _ a k rfl rfl
  · exact biasRow_at x8 _ k rfl

/-- The reference's updated features are the specification's update network of the features and the mean message. -/
theorem upd_eq :
    Read.val_main_v63 (F := Ideal) x0 x1 x2 x3 x4 x5 x6 x7 x8 x9 x10
      = upd x0 (Read.val_main_v53 x0 x1 x2 x3 x4 x5 x6)
          (rowBlock 64 0 (by norm_num) x7) (rowBlock 64 64 (by norm_num) x7) (biasRow x8) x9 (biasRow x10) := by
  funext i
  obtain ⟨n, d, rfl⟩ : ∃ (n : Fin 100000) (d : Fin 64), i = ix2 n d := ⟨i 0, i 1, eq_ix2 i⟩
  rw [Read.val_main_v63_apply, Read.val_main_v60_apply, Read.val_main_v62_apply, Read.val_main_v61_apply,
    Ideal.addf_def]
  unfold upd
  refine congrArg₂ (· + ·) (Finset.sum_congr rfl fun k _ => congrArg₂ (· * ·) ?_ ?_) ?_
  · have el : Read.lidx_main_v60 (ix2 n d) k = ix2 n k := funext fun b => Fin.ext (by
      match b with
      | ⟨0, _⟩ => rfl
      | ⟨1, _⟩ => rfl)
    rw [el, Read.val_main_v59_apply, Read.val_main_call1_v0_apply, Read.val_main_call1_cst_apply,
      Ideal.maximumf_def, Ideal.ofBits_def, Ideal.ofBits_zero_f32, updHid_eq]
  · exact congrArg x9 (funext fun b => Fin.ext (by
      match b with
      | ⟨0, _⟩ => rfl
      | ⟨1, _⟩ => rfl))
  · exact biasRow_at x10 _ d rfl

end Update

end Cert.ReferenceIdeal.RefNets

end
-- ==== Proof.TakeRows.lean ====
/-
  The kernel program's row gather, read at one edge whose row number names a row.

  The gather numbers rows the numpy way: a negative row word has 100000 added (`wrapRow`), and a row whose wrapped
  number is still outside `0 … 99999` is replaced by the NaN pattern (`inRange` is the per-edge test: a signed `≥ 0`
  and a signed `≤ 99999` on the column of start indices, and-ed, and-reduced over the size-one axis). For a row word
  `w` with `-100000 ≤ w < 100000` the wrapped number is `w` or `w + 100000`, in either case inside `0 … 99999`
  (the sum does not wrap at 32 bits), so the test is 1 and the select keeps the gathered row.

  Beside that: row `r` of the edge list, sliced and flattened, reads at `e` the edge list at `(r, e)`, and a vector laid
  as a column reads at `(e, 0)` the vector at `e`.
-/
import proofs.«425533_j65094524339280_1_alg».proof.Proof.TakeFn
import Idealize.ShloMosaic.PureOps.Ideal
import Idealize.ShloMosaic.Lib.ReduceAll
import Idealize.ShloMosaic.Lib.ValueIdx
import Idealize.ShloMosaic.Lib.Pipeline.Value

namespace Cert.KernelIdeal.TakeRows

open Cert.KernelIdeal Cert.KernelIdeal.Gen
open Idealize.ShloMosaic Idealize.ShloMosaic.ValueIdx

/-! ## Words -/

/-- The zero word reads, signed, as 0. -/
theorem zero_toInt : (0#32 : BitVec 32).toInt = 0 := by decide
/-- The word `99999` reads, signed, as that integer. -/
theorem top_toInt : (99999#32 : BitVec 32).toInt = 99999 := by decide
/-- The word `100000` reads, signed, as that integer. -/
theorem rows_toInt : (100000#32 : BitVec 32).toInt = 100000 := by decide

/-- An integer in the signed 32-bit range is its own balanced remainder modulo 2³². -/
theorem bmod32 {n : Int} (h₁ : -2 ^ 31 ≤ n) (h₂ : n < 2 ^ 31) : n.bmod (2 ^ 32) = n :=
  Int.bmod_eq_of_le (by omega) (by omega)

/-- NUMPY'S WRAP OF A ROW WORD. A word in `[-100000, 100000)`, with 100000 added when it is negative, lies in
    `[0, 99999]`: the sum stays far inside the signed range, so it is the integers' sum. -/
theorem wrap_word (w : BitVec 32) (h : (-100000 : Int) ≤ w.toInt ∧ w.toInt < 100000) :
    (0 : Int) ≤ (Scalar.select (IntOp.cmpi .slt w 0#32) (IntOp.addi w 100000#32) w).toInt
      ∧ (Scalar.select (IntOp.cmpi .slt w 0#32) (IntOp.addi w 100000#32) w).toInt ≤ 99999 := by
  obtain ⟨hlo, hhi⟩ := h
  by_cases hn : w.toInt < 0
  · have hc : IntOp.cmpi .slt w 0#32 = 1#1 := IntOp.cmpi_slt.2 (by rw [zero_toInt]; exact hn)
    have ha : (IntOp.addi w 100000#32).toInt = w.toInt + 100000 := by
      show (w + 100000#32).toInt = _
      rw [BitVec.toInt_add, rows_toInt]
      exact bmod32 (by omega) (by omega)
    rw [hc, select_one, ha]
    omega
  · have hc : ¬IntOp.cmpi .slt w 0#32 = 1#1 := fun hc => hn (by
      have t := IntOp.cmpi_slt.1 hc
      rwa [zero_toInt] at t)
    rw [eq_zero_of_ne_one hc, select_zero]
    omega

/-! ## An and-reduction that comes out 1 -/

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l fun n hn => h n (List.mem_cons.2 (Or.inr hn))

/-- A reduce by `and` from the constant 1 is 1 at `j` when every operand bit that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun i hi => hx i (of_decide_eq_true (List.mem_filter.1 hi).2)

/-! ## Layout reads -/

/-- A vector of 1600000 entries laid along the first axis of a `[1600000, m]` rectangle reads, at `i`, the vector at
    `i`'s first coordinate. -/
theorem bcastAxis0_apply {α : Type} {m : Nat}
    (h : S1600000.BroadcastsInDim ⟨2, ![1600000, m]⟩ (![0] : Fin 1 → Fin (⟨2, ![1600000, m]⟩ : Shape).rank))
    (v : S1600000.Idx → α) (i : (⟨2, ![1600000, m]⟩ : Shape).Idx) :
    broadcastInDim ⟨2, ![1600000, m]⟩ ![0] h v i = v (ix1 (i 0)) := by
  unfold broadcastInDim
  refine congrArg v (funext fun a => ?_)
  match a with
  | ⟨0, _⟩ =>
    apply Fin.ext
    split
    · next h1 => change (1600000 : Nat) = 1 at h1; omega
    · rfl

/-- Row `r` of a `[2, 1600000]` array, sliced out and flattened, reads at `e` the array at `(r, e)`. -/
theorem rowFlat_apply {α : Type} (r : Fin 2) (off : Fin 2 → Nat) (h0 : off 0 = r.val) (h1 : off 1 = 0)
    (x : S2x1600000.Idx → α) (hs : S2x1600000.Slices off S1x1600000) (hc : S1x1600000.ShapeCasts S1600000)
    (e : Fin 1600000) :
    shapeCast S1600000 (extractStridedSlice S1x1600000 off x hs) hc (ix1 e) = x (ix2 r e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ x hs _ _ fun a => ?_
    match a with
    | ⟨0, _⟩ => show r.val = off 0 + 0; omega
    | ⟨1, _⟩ => show e.val = off 1 + e.val; omega

/-- The first row of the edge list at `e`. -/
theorem edgeRow0_apply (a1 : IVec S2x1600000 32) (e : Fin 1600000) :
    TakeFn.edgeRow0 a1 (ix1 e) = a1 (ix2 (0 : Fin 2) e) :=
  rowFlat_apply 0 ![0, 0] rfl rfl a1 _ _ e

/-- The second row of the edge list at `e`. -/
theorem edgeRow1_apply (a1 : IVec S2x1600000 32) (e : Fin 1600000) :
    TakeFn.edgeRow1 a1 (ix1 e) = a1 (ix2 (1 : Fin 2) e) :=
  rowFlat_apply 1 ![1, 0] rfl rfl a1 _ _ e

/-- The column of scatter indices at `(e, 0)` is the index vector at `e`. -/
theorem scatterIdx_apply (idx : IVec S1600000 32) (e : Fin 1600000) :
    (broadcastInDim S1600000x1 ![0] bcast_S1600000_S1600000x1_0 idx) (ix2 e (0 : Fin 1)) = idx (ix1 e) :=
  bcastAxis0_apply _ idx (ix2 e (0 : Fin 1))

/-! ## The per-edge range test -/

/-- The start index of an edge is its row word, wrapped. -/
theorem startIdx_apply (idx : IVec S1600000 32) (i : S1600000x1.Idx) :
    TakeFn.startIdx idx i
      = Scalar.select (IntOp.cmpi .slt (idx (ix1 (i 0))) 0#32) (IntOp.addi (idx (ix1 (i 0))) 100000#32) (idx (ix1 (i 0))) :=
  bcastAxis0_apply _ (TakeFn.wrapRow idx) i

/-- Where the row word is in `[-100000, 100000)` both comparisons of the wrapped number hold. -/
theorem mask_eq_one (idx : IVec S1600000 32) (i : S1600000x1.Idx)
    (h : (-100000 : Int) ≤ (idx (ix1 (i 0))).toInt ∧ (idx (ix1 (i 0))).toInt < 100000) :
    andi (cmpi .sge (TakeFn.startIdx idx) (broadcastInDim S1600000x1 ![] bcast_S_S1600000x1 (constantI S_ 32 0#32)))
      (cmpi .sle (TakeFn.startIdx idx)
        (broadcastInDim S1600000x1 ![0, 1] bcast_S1x1_S1600000x1_0_1
          (broadcastInDim S1x1 ![1] bcast_S1_S1x1_1 (constantI S1 32 99999#32)))) i = 1#1 := by
  obtain ⟨hlo, hhi⟩ := wrap_word _ h
  show IntOp.andi (IntOp.cmpi .sge (TakeFn.startIdx idx i) 0#32) (IntOp.cmpi .sle (TakeFn.startIdx idx i) 99999#32) = 1#1
  rw [startIdx_apply]
  exact IntOp.andi_eq_one.2 ⟨IntOp.cmpi_sge.2 (by rw [zero_toInt]; exact hlo), IntOp.cmpi_sle.2 (by rw [top_toInt]; exact hhi)⟩

/-- The range test of an edge whose row word is in `[-100000, 100000)` is 1. -/
theorem inRange_eq_one (idx : IVec S1600000 32) (e : Fin 1600000)
    (h : (-100000 : Int) ≤ (idx (ix1 e)).toInt ∧ (idx (ix1 e)).toInt < 100000) : TakeFn.inRange idx (ix1 e) = 1#1 := by
  unfold TakeFn.inRange
  refine reduce_andi_one _ _ _ _ _ rfl fun i hi => ?_
  have hv : ((reducesTo_S1600000x1_S1600000_d1.drop i) 0 : Nat) = (i 0 : Nat) := Shape.ReducesTo.drop_apply_val _ i 0
  rw [hi] at hv
  have h0 : e = i 0 := Fin.ext hv
  subst h0
  exact mask_eq_one idx i h

/-! ## The gather keeps the row -/

/-- The feature-table gather at an edge whose row word names a row is the gathered row. -/
theorem take64_row (x : FVec Ideal S100000x64 .f32) (idx : IVec S1600000 32) (e : Fin 1600000)
    (h : (-100000 : Int) ≤ (idx (ix1 e)).toInt ∧ (idx (ix1 e)).toInt < 100000) (a : Fin 64) :
    TakeFn.take64 (F := Ideal) x idx (ix2 e a)
      = Host.gather gather_S100000x64_S1600000x1_S1600000x64_1_0_n_n_0_1_164 x (TakeFn.startIdx idx) (ix2 e a) := by
  have hb : broadcastInDim S1600000x64 ![0] bcast_S1600000_S1600000x64_0 (TakeFn.inRange idx) (ix2 e a) = 1#1 :=
    (bcastAxis0_apply _ _ _).trans (inRange_eq_one idx e h)
  unfold TakeFn.take64
  rw [select_apply, hb]
  exact select_one _ _

/-- The position-table gather at an edge whose row word names a row is the gathered row. -/
theorem take3_row (p : FVec Ideal S100000x3 .f32) (idx : IVec S1600000 32) (e : Fin 1600000)
    (h : (-100000 : Int) ≤ (idx (ix1 e)).toInt ∧ (idx (ix1 e)).toInt < 100000) (a : Fin 3) :
    TakeFn.take3 (F := Ideal) p idx (ix2 e a)
      = Host.gather gather_S100000x3_S1600000x1_S1600000x3_1_0_n_n_0_1_13 p (TakeFn.startIdx idx) (ix2 e a) := by
  have hb : broadcastInDim S1600000x3 ![0] bcast_S1600000_S1600000x3_0 (TakeFn.inRange idx) (ix2 e a) = 1#1 :=
    (bcastAxis0_apply _ _ _).trans (inRange_eq_one idx e h)
  unfold TakeFn.take3
  rw [select_apply, hb]
  exact select_one _ _

end Cert.KernelIdeal.TakeRows
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.AggrCongr.lean ====
/-
  The per-node mean of the messages depends only on the message rows whose index word names a node.

  `aggregate msg idx` divides the per-node sum of the message rows (an accumulating row scatter over the column of
  index words) by the per-node count clipped below at one. The count does not read the messages. Entry `(n, d)` of the
  sum is the sum of `msg (e, d)` over the rows `e` whose index word, read signed, is `n`: a number in `0 … 99999`. So
  two message arrays that agree on every row whose index word is such a number have the same aggregate.
-/
import proofs.«425533_j65094524339280_1_alg».proof.Proof.TakeFn
import proofs.«425533_j65094524339280_1_alg».proof.Proof.TakeRows
import proofs.«425533_j65094524339280_1_alg».proof.Proof.LibScatterRows

namespace Cert.KernelIdeal.AggrCongr

open Cert.KernelIdeal Cert.KernelIdeal.Gen
open Idealize.ShloMosaic Idealize.ShloMosaic.ValueIdx

/-- The per-node sum read at `(n, d)`: the operand's entry plus the message entries `(e, d)` of the rows `e` whose index
    word is `n`. -/
theorem scatterSum_apply (z : FVec Ideal S100000x64 .f32) (i : IVec S1600000x1 32) (u : FVec Ideal S1600000x64 .f32)
    (n : Fin 100000) (d : Fin 64) :
    Host.scatterAdd (F := Ideal) scatter_S100000x64_S1600000x1_S1600000x64_1_0_0_1 z i u (ix2 n d)
      = z (ix2 n d) + ∑ e ∈ SegSum.rowsOf i n, u (ix2 e d) :=
  SegSum.hostScatterAdd_rows_apply scatter_S100000x64_S1600000x1_S1600000x64_1_0_0_1_wf z i u n d

/-- Two message arrays that agree on the rows whose index word is a row number have the same per-node sums. -/
theorem scatterSum_congr (u u' : FVec Ideal S1600000x64 .f32) (idx : IVec S1600000 32)
    (h : ∀ e : Fin 1600000, 0 ≤ (idx (ix1 e)).toInt → (idx (ix1 e)).toInt < 100000 →
      ∀ d : Fin 64, u (ix2 e d) = u' (ix2 e d))
    (z : FVec Ideal S100000x64 .f32) :
    Host.scatterAdd (F := Ideal) scatter_S100000x64_S1600000x1_S1600000x64_1_0_0_1 z
        (broadcastInDim S1600000x1 ![0] bcast_S1600000_S1600000x1_0 idx) u
      = Host.scatterAdd (F := Ideal) scatter_S100000x64_S1600000x1_S1600000x64_1_0_0_1 z
        (broadcastInDim S1600000x1 ![0] bcast_S1600000_S1600000x1_0 idx) u' := by
  funext i
  obtain ⟨n, d, rfl⟩ : ∃ (n : Fin 100000) (d : Fin 64), i = ix2 n d := ⟨i 0, i 1, eq_ix2 i⟩
  rw [scatterSum_apply, scatterSum_apply]
  refine congrArg (z (ix2 n d) + ·) (Finset.sum_congr rfl fun e he => ?_)
  have hw : ((broadcastInDim S1600000x1 ![0] bcast_S1600000_S1600000x1_0 idx) (ix2 e (0 : Fin 1))).toInt = (n.val : Int) :=
    (Finset.mem_filter.1 he).2
  rw [TakeRows.scatterIdx_apply] at hw
  have hn := n.isLt
  exact h e (by omega) (by omega) d

/-- THE AGGREGATE IS A FUNCTION OF THE VALID ROWS. -/
theorem aggregate_congr (u u' : FVec Ideal S1600000x64 .f32) (idx : IVec S1600000 32)
    (h : ∀ e : Fin 1600000, 0 ≤ (idx (ix1 e)).toInt → (idx (ix1 e)).toInt < 100000 →
      ∀ d : Fin 64, u (ix2 e d) = u' (ix2 e d)) :
    TakeFn.aggregate (F := Ideal) u idx = TakeFn.aggregate (F := Ideal) u' idx := by
  unfold TakeFn.aggregate
  rw [scatterSum_congr u u' idx h]

end Cert.KernelIdeal.AggrCongr
-- ==== Proof.Bridge.lean ====
/-
  The kernel program's result is the reference's last stage.

  Both sides are the update network of the node features and the mean message per node. The kernel side takes the
  message network of rows gathered the guarded way (a row whose wrapped number is outside `0 … 99999` becomes the NaN
  pattern); the reference gathers with the same wrapped start indices and no guard. The two message arrays may differ on
  an edge whose FIRST-row word is not a row number, but the mean message sums only the edges whose first-row word, read
  signed, is a node `n` in `0 … 99999`. On such an edge the first-row word is in range, the second-row word is in range by
  the hypothesis, so every guarded gather keeps its row and the two messages agree. The rest is layout: a unit-stride
  slice of a weight matrix is a row block, a `[64]` bias reshaped to `[1, 64]` is a one-row matrix, and the reference's
  index, gather and aggregation stages are the same host functions as the kernel program's, operation for operation.
-/
import proofs.«425533_j65094524339280_1_alg».proof.Proof.RefNets
import proofs.«425533_j65094524339280_1_alg».proof.Proof.Gen.ReferenceIdeal.Read
import proofs.«425533_j65094524339280_1_alg».proof.Proof.Spec
import proofs.«425533_j65094524339280_1_alg».proof.Proof.TakeFn
import proofs.«425533_j65094524339280_1_alg».proof.Proof.TakeRows
import proofs.«425533_j65094524339280_1_alg».proof.Proof.AggrCongr
import Idealize.ShloMosaic.Lib.ValueLayout
import Idealize.ShloMosaic.Lib.Pipeline.Value

set_option maxRecDepth 16384

namespace Cert.Bridge

open Cert.KernelIdeal Cert.KernelIdeal.Gen
open Idealize.ShloMosaic Idealize.ShloMosaic.ValueIdx

/-! ## Layout -/

/-- The unit-stride slice of rows `off … off + r - 1`, all 64 columns, of a 64-column matrix is that row block. -/
theorem slice_eq_rowBlock {R : Nat} (r off : Nat) (hle : off + r ≤ R) (w : Cert.Spec.Mat R 64)
    (hs : (⟨2, ![R, 64]⟩ : Shape).Slices ![off, 0] ⟨2, ![r, 64]⟩) :
    extractStridedSlice ⟨2, ![r, 64]⟩ ![off, 0] w hs = Cert.Spec.rowBlock r off hle w := by
  funext i
  unfold Cert.Spec.rowBlock
  refine extractStridedSlice_apply _ w hs i _ fun a => ?_
  match a with
  | ⟨0, _⟩ => rfl
  | ⟨1, _⟩ => show (i 1).val = 0 + (i 1).val; omega

/-- A 64-vector reshaped to `[1, 64]` is the vector as a one-row matrix. -/
theorem cast_eq_biasRow (b : (⟨1, ![64]⟩ : Shape).Idx → EReal)
    (hc : (⟨1, ![64]⟩ : Shape).ShapeCasts ⟨2, ![1, 64]⟩) :
    shapeCast ⟨2, ![1, 64]⟩ b hc = Cert.Spec.biasRow b := by
  funext i
  obtain ⟨u, k, rfl⟩ : ∃ (u : Fin 1) (k : Fin 64), i = ix2 u k := ⟨i 0, i 1, eq_ix2 i⟩
  exact shapeCast_a_1a_apply b hc u k

/-! ## The reference's stages are the kernel program's host functions -/

section Stages
variable {F : FTy → Type} [FloatOps F]

/-- The reference's first-row vector of the edge list. -/
theorem ref_v1 (x1 : IVec S2x1600000 32) : ReferenceIdeal.Read.val_main_v1 (F := F) x1 = TakeFn.edgeRow0 x1 := rfl
/-- The reference's second-row vector of the edge list. -/
theorem ref_v3 (x1 : IVec S2x1600000 32) : ReferenceIdeal.Read.val_main_v3 (F := F) x1 = TakeFn.edgeRow1 x1 := rfl

/-- The reference's feature rows of the first-row nodes: the gather at the wrapped start indices. -/
theorem ref_v10 (x0 : FVec F S100000x64 .f32) (x1 : IVec S2x1600000 32) :
    ReferenceIdeal.Read.val_main_v10 (F := F) x0 x1 = Host.gather gather_S100000x64_S1600000x1_S1600000x64_1_0_n_n_0_1_164 x0 (TakeFn.startIdx (TakeFn.edgeRow0 x1)) := rfl
/-- The reference's feature rows of the second-row nodes. -/
theorem ref_v17 (x0 : FVec F S100000x64 .f32) (x1 : IVec S2x1600000 32) :
    ReferenceIdeal.Read.val_main_v17 (F := F) x0 x1 = Host.gather gather_S100000x64_S1600000x1_S1600000x64_1_0_n_n_0_1_164 x0 (TakeFn.startIdx (TakeFn.edgeRow1 x1)) := rfl
/-- The reference's position rows of the second-row nodes. -/
theorem ref_v24 (x1 : IVec S2x1600000 32) (x2 : FVec F S100000x3 .f32) :
    ReferenceIdeal.Read.val_main_v24 (F := F) x1 x2 = Host.gather gather_S100000x3_S1600000x1_S1600000x3_1_0_n_n_0_1_13 x2 (TakeFn.startIdx (TakeFn.edgeRow1 x1)) := rfl
/-- The reference's position rows of the first-row nodes. -/
theorem ref_v31 (x1 : IVec S2x1600000 32) (x2 : FVec F S100000x3 .f32) :
    ReferenceIdeal.Read.val_main_v31 (F := F) x1 x2 = Host.gather gather_S100000x3_S1600000x1_S1600000x3_1_0_n_n_0_1_13 x2 (TakeFn.startIdx (TakeFn.edgeRow0 x1)) := rfl

/-- The reference's mean message per node is the aggregate of its message array over the first-row words. -/
theorem ref_v53 (x0 : FVec F S100000x64 .f32) (x1 : IVec S2x1600000 32) (x2 : FVec F S100000x3 .f32)
    (x3 : FVec F S131x64 .f32) (x4 : FVec F S64 .f32) (x5 : FVec F S64x64 .f32) (x6 : FVec F S64 .f32) :
    ReferenceIdeal.Read.val_main_v53 (F := F) x0 x1 x2 x3 x4 x5 x6
      = TakeFn.aggregate (F := F) (ReferenceIdeal.Read.val_main_v42 (F := F) x0 x1 x2 x3 x4 x5 x6) (TakeFn.edgeRow0 x1) := rfl

end Stages

/-! ## The two message arrays agree on every edge that is summed -/

/-- On an edge whose first-row word is a node and whose second-row word is in `[-100000, 100000)` every guarded gather
    keeps its row, so the message network of the guarded rows is that of the reference's rows. -/
theorem msg_rows_agree (a0 : FVec Ideal S100000x64 .f32) (a1 : IVec S2x1600000 32) (a2 : FVec Ideal S100000x3 .f32)
    (wxi wxj : Cert.Spec.Mat 64 64) (wpos : Cert.Spec.Mat 3 64) (b1 : Cert.Spec.Mat 1 64) (w2 : Cert.Spec.Mat 64 64)
    (b2 : Cert.Spec.Mat 1 64)
    (h : ∀ e : Fin 1600000, (-100000 : Int) ≤ (a1 (ix2 (1 : Fin 2) e)).toInt ∧ (a1 (ix2 (1 : Fin 2) e)).toInt < 100000)
    (e : Fin 1600000) (h0 : 0 ≤ (TakeFn.edgeRow0 a1 (ix1 e)).toInt) (h1 : (TakeFn.edgeRow0 a1 (ix1 e)).toInt < 100000)
    (d : Fin 64) :
    Cert.Spec.msg (TakeFn.take64 (F := Ideal) a0 (TakeFn.edgeRow0 a1)) (TakeFn.take64 (F := Ideal) a0 (TakeFn.edgeRow1 a1))
        (subf (F := Ideal) (TakeFn.take3 a2 (TakeFn.edgeRow1 a1)) (TakeFn.take3 a2 (TakeFn.edgeRow0 a1)))
        wxi wxj wpos b1 w2 b2 (ix2 e d)
      = Cert.Spec.msg (ReferenceIdeal.Read.val_main_v10 (F := Ideal) a0 a1) (ReferenceIdeal.Read.val_main_v17 (F := Ideal) a0 a1)
        (ReferenceIdeal.Read.val_main_v32 (F := Ideal) a1 a2) wxi wxj wpos b1 w2 b2 (ix2 e d) := by
  have r0 : (-100000 : Int) ≤ (TakeFn.edgeRow0 a1 (ix1 e)).toInt ∧ (TakeFn.edgeRow0 a1 (ix1 e)).toInt < 100000 :=
    ⟨by omega, h1⟩
  have r1 : (-100000 : Int) ≤ (TakeFn.edgeRow1 a1 (ix1 e)).toInt ∧ (TakeFn.edgeRow1 a1 (ix1 e)).toInt < 100000 := by
    rw [TakeRows.edgeRow1_apply]
    exact h e
  refine Cert.Spec.msg_row_congr wxi wxj wpos b1 w2 b2 e (fun a => ?_) (fun a => ?_) (fun a => ?_) d
  · exact (TakeRows.take64_row a0 (TakeFn.edgeRow0 a1) e r0 a).trans
      (congrFun (ref_v10 (F := Ideal) a0 a1).symm (ix2 e a))
  · exact (TakeRows.take64_row a0 (TakeFn.edgeRow1 a1) e r1 a).trans
      (congrFun (ref_v17 (F := Ideal) a0 a1).symm (ix2 e a))
  · have e24 : TakeFn.take3 (F := Ideal) a2 (TakeFn.edgeRow1 a1) (ix2 e a)
        = ReferenceIdeal.Read.val_main_v24 (F := Ideal) a1 a2 (ix2 e a) :=
      (TakeRows.take3_row a2 (TakeFn.edgeRow1 a1) e r1 a).trans (congrFun (ref_v24 (F := Ideal) a1 a2).symm (ix2 e a))
    have e31 : TakeFn.take3 (F := Ideal) a2 (TakeFn.edgeRow0 a1) (ix2 e a)
        = ReferenceIdeal.Read.val_main_v31 (F := Ideal) a1 a2 (ix2 e a) :=
      (TakeRows.take3_row a2 (TakeFn.edgeRow0 a1) e r0 a).trans (congrFun (ref_v31 (F := Ideal) a1 a2).symm (ix2 e a))
    rw [subf_apply, e24, e31]
    unfold ReferenceIdeal.Read.val_main_v32
    rw [subf_apply]

/-! ## The bridge -/

/-- THE KERNEL PROGRAM'S RESULT IS THE REFERENCE'S, when every second-row word of the edge list is in
    `[-100000, 100000)`. -/
theorem kernel_eq_reference (a0 : FVec Ideal S100000x64 .f32) (a1 : IVec S2x1600000 32) (a2 : FVec Ideal S100000x3 .f32)
    (a3 : FVec Ideal S131x64 .f32) (a4 : FVec Ideal S64 .f32) (a5 : FVec Ideal S64x64 .f32) (a6 : FVec Ideal S64 .f32)
    (a7 : FVec Ideal S128x64 .f32) (a8 : FVec Ideal S64 .f32) (a9 : FVec Ideal S64x64 .f32) (a10 : FVec Ideal S64 .f32)
    (h : ∀ e : Fin 1600000, (-100000 : Int) ≤ (a1 (ix2 (1 : Fin 2) e)).toInt ∧ (a1 (ix2 (1 : Fin 2) e)).toInt < 100000) :
    Cert.Spec.upd a0
        (TakeFn.aggregate (F := Ideal)
          (Cert.Spec.msg (TakeFn.take64 a0 (TakeFn.edgeRow0 a1)) (TakeFn.take64 a0 (TakeFn.edgeRow1 a1))
            (subf (F := Ideal) (TakeFn.take3 a2 (TakeFn.edgeRow1 a1)) (TakeFn.take3 a2 (TakeFn.edgeRow0 a1)))
            (extractStridedSlice S64x64 ![0, 0] a3 slices_S131x64_S64x64_0_0) (extractStridedSlice S64x64 ![64, 0] a3 slices_S131x64_S64x64_64_0)
            (extractStridedSlice S3x64 ![128, 0] a3 slices_S131x64_S3x64_128_0)
            (shapeCast S1x64 a4 shapeCasts_S64_S1x64) a5 (shapeCast S1x64 a6 shapeCasts_S64_S1x64))
          (TakeFn.edgeRow0 a1))
        (extractStridedSlice S64x64 ![0, 0] a7 slices_S128x64_S64x64_0_0) (extractStridedSlice S64x64 ![64, 0] a7 slices_S128x64_S64x64_64_0)
        (shapeCast S1x64 a8 shapeCasts_S64_S1x64) a9 (shapeCast S1x64 a10 shapeCasts_S64_S1x64)
      = Cert.ReferenceIdeal.Read.val_main_v63 (F := Ideal) a0 a1 a2 a3 a4 a5 a6 a7 a8 a9 a10 := by
  have eW1 : extractStridedSlice S64x64 ![0, 0] a3 slices_S131x64_S64x64_0_0 = Cert.Spec.rowBlock 64 0 (by norm_num) a3 :=
    slice_eq_rowBlock (R := 131) 64 0 _ a3 _
  have eW2 : extractStridedSlice S64x64 ![64, 0] a3 slices_S131x64_S64x64_64_0 = Cert.Spec.rowBlock 64 64 (by norm_num) a3 :=
    slice_eq_rowBlock (R := 131) 64 64 _ a3 _
  have eW3 : extractStridedSlice S3x64 ![128, 0] a3 slices_S131x64_S3x64_128_0 = Cert.Spec.rowBlock 3 128 (by norm_num) a3 :=
    slice_eq_rowBlock (R := 131) 3 128 _ a3 _
  have eB1 : shapeCast S1x64 a4 shapeCasts_S64_S1x64 = Cert.Spec.biasRow a4 := cast_eq_biasRow a4 _
  have eB2 : shapeCast S1x64 a6 shapeCasts_S64_S1x64 = Cert.Spec.biasRow a6 := cast_eq_biasRow a6 _
  have eU1 : extractStridedSlice S64x64 ![0, 0] a7 slices_S128x64_S64x64_0_0 = Cert.Spec.rowBlock 64 0 (by norm_num) a7 :=
    slice_eq_rowBlock (R := 128) 64 0 _ a7 _
  have eU2 : extractStridedSlice S64x64 ![64, 0] a7 slices_S128x64_S64x64_64_0 = Cert.Spec.rowBlock 64 64 (by norm_num) a7 :=
    slice_eq_rowBlock (R := 128) 64 64 _ a7 _
  have eB3 : shapeCast S1x64 a8 shapeCasts_S64_S1x64 = Cert.Spec.biasRow a8 := cast_eq_biasRow a8 _
  have eB4 : shapeCast S1x64 a10 shapeCasts_S64_S1x64 = Cert.Spec.biasRow a10 := cast_eq_biasRow a10 _
  rw [eW1, eW2, eW3, eB1, eB2, eU1, eU2, eB3, eB4, ReferenceIdeal.RefNets.upd_eq, ref_v53, ReferenceIdeal.RefNets.msg_eq]
  refine congrArg (fun s => Cert.Spec.upd a0 s _ _ _ _ _) ?_
  exact AggrCongr.aggregate_congr _ _ _ fun e h0 h1 d => msg_rows_agree a0 a1 a2 _ _ _ _ _ _ h e h0 h1 d

end Cert.Bridge
-- ==== Proof.PreRange.lean ====
/-
  The second row of the edge list holds row numbers of a 100000-row table.

  The printed precondition ends in two conjuncts about row 1 of the integer argument `[2, 1600000]`: every entry is at
  least -100000 and every entry is below 100000, each a slice of row 1, a reshape to a flat vector, a signed comparison
  against a broadcast constant and an `and`-reduction over the one axis. Read back at an entry `e` they say
  `-100000 ≤ x[1, e] < 100000` as integers: the range in which an index, negative numbering included, names a row.
-/
import proofs.«425533_j65094524339280_1_alg».proof.Pre_finite_inputs
import Idealize.ShloMosaic.Lib.ReduceAll
import Idealize.ShloMosaic.Lib.ValueIdx
import Idealize.ShloMosaic.Lib.Pipeline.Value

namespace Cert.PreRange

open Idealize.ShloMosaic Idealize.ShloMosaic.ValueIdx Cert.Pre_finite_inputs

/-- The scalar shape has one index. -/
instance : Subsingleton S_.Idx := ⟨fun a b => funext fun d => d.elim0⟩

/-! ## The two constants as integers -/

/-- The word printed for `-100000` reads, signed, as that integer. -/
theorem lo_toInt : (4294867296#32 : BitVec 32).toInt = -100000 := by decide

/-- The word `100000` reads, signed, as that integer. -/
theorem hi_toInt : (100000#32 : BitVec 32).toInt = 100000 := by decide

/-! ## Row 1, flattened, read at an entry -/

/-- The slice `[1:2, 0:1600000]` of a `[2, 1600000]` array reshaped to `[1600000]` reads, at `e`, the array at `(1, e)`. -/
theorem row1_apply {α : Type} (x : S2x1600000.Idx → α) (hs : S2x1600000.Slices ![1, 0] S1x1600000)
    (hc : S1x1600000.ShapeCasts S1600000) (e : Fin 1600000) :
    shapeCast S1600000 (extractStridedSlice S1x1600000 ![1, 0] x hs) hc (ix1 e) = x (ix2 (1 : Fin 2) e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ x hs _ _ fun a => ?_
    match a with
    | ⟨0, _⟩ => rfl
    | ⟨1, _⟩ => show e.val = 0 + e.val; omega

/-- A scalar broadcast along the flat vector reads the scalar at every entry. -/
theorem bcast_apply {α : Type} (h : S_.BroadcastsInDim S1600000 (![] : Fin 0 → Fin S1600000.rank)) (c : S_.Idx → α)
    (j : S1600000.Idx) : broadcastInDim S1600000 ![] h c j = c ix0 := by
  unfold broadcastInDim
  exact congrArg c (Subsingleton.elim _ _)

/-! ## The last two conjuncts, over variables -/

variable [Facts]

/-- When the last part of the printed predicate is true, the vector compared against the lower constant is entrywise at
    least that constant, and row 1 of the integer argument is entrywise below 100000. -/
theorem part3_facts (x : IVec S2x1600000 32) (v48 : IVec S_ 1) (v50 : IVec S1600000 32) (c18 : IVec S_ 32)
    (h : fn_part3 (F := Ideal) x v48 v50 c18 ix0 = 1#1) (e : Fin 1600000) :
    (c18 ix0).toInt ≤ (v50 (ix1 e)).toInt ∧ (x (ix2 (1 : Fin 2) e)).toInt < 100000 := by
  dsimp only [fn_part3] at h
  obtain ⟨h54, h59⟩ := IntOp.andi_eq_one.1 h
  obtain ⟨-, h53⟩ := IntOp.andi_eq_one.1 h54
  have g1 := Host.reduce_andi_all _ _ _ _ ix0 h53 (ix1 e)
  have g2 := Host.reduce_andi_all _ _ _ _ ix0 h59 (ix1 e)
  constructor
  · have t : (broadcastInDim S1600000 ![] Facts.bcast_S_S1600000 c18 (ix1 e)).toInt ≤ (v50 (ix1 e)).toInt :=
      IntOp.cmpi_sge.1 g1
    rwa [bcast_apply] at t
  · have t : (shapeCast S1600000 (extractStridedSlice S1x1600000 ![1, 0] x Facts.slices_S2x1600000_S1x1600000_1_0)
          Facts.shapeCasts_S1x1600000_S1600000 (ix1 e)).toInt
        < (broadcastInDim S1600000 ![] Facts.bcast_S_S1600000 (constantI S_ 32 100000#32) (ix1 e)).toInt :=
      IntOp.cmpi_slt.1 g2
    rw [row1_apply, bcast_apply] at t
    exact t.trans_eq hi_toInt

/-! ## The range of the second row -/

/-- Under the printed precondition every entry of row 1 of the integer argument lies in `[-100000, 100000)`. -/
theorem idx1_range {a0 : FVec Ideal S100000x64 .f32} {a1 : IVec S2x1600000 32} {a2 : FVec Ideal S100000x3 .f32}
    {a3 : FVec Ideal S131x64 .f32} {a4 : FVec Ideal S64 .f32} {a5 : FVec Ideal S64x64 .f32} {a6 : FVec Ideal S64 .f32}
    {a7 : FVec Ideal S128x64 .f32} {a8 : FVec Ideal S64 .f32} {a9 : FVec Ideal S64x64 .f32} {a10 : FVec Ideal S64 .f32}
    (h : Cert.Pre_finite_inputs.fn (F := Ideal) a0 a1 a2 a3 a4 a5 a6 a7 a8 a9 a10 = (fun _ => 1#1)) (e : Fin 1600000) :
    (-100000 : Int) ≤ (a1 (ix2 (1 : Fin 2) e)).toInt ∧ (a1 (ix2 (1 : Fin 2) e)).toInt < 100000 := by
  have h0 := congrFun h ix0
  dsimp only [fn, fn_part1, fn_part2] at h0
  obtain ⟨hlo, hhi⟩ := part3_facts _ _ _ _ h0 e
  refine ⟨?_, hhi⟩
  rw [row1_apply] at hlo
  exact lo_toInt.symm.trans_le hlo

end Cert.PreRange
-- ==== Proof.lean ====
/-
  The certificate of one message-passing layer: a Pallas kernel program (two pallas_calls and the host's gathers
  and segment mean around them) against its jnp reference, over the extended reals.

  The mathematics. For every edge (i, j) the message is a two-layer network of the features of node i, the
  features of node j and the position difference pos j − pos i; the messages are averaged per receiving node i;
  every node is then updated by a second two-layer network of its own features and that mean. The kernel
  program computes each first layer as the SUM of the dot products with the row blocks of the weight matrix
  (three blocks for the message network, two for the update network) where the reference joins the columns and
  takes ONE dot product: the same number, a finite sum regrouped, which on the extended reals needs no
  finiteness (Cert.Spec.sum131_split, sum128_split). Matrix products, the change of float format before them and
  the tiling into row blocks of 4000 edges and 5000 nodes are not differences at all over the extended reals.

  The one real difference is in the row gathers. Both programs number rows the numpy way (a negative row number
  counts from the end); the kernel program then REPLACES a gathered row by the NaN pattern when its number is
  still outside the table, where the reference reads a clamped row. The statement therefore carries the
  precondition that the SECOND row of the edge list (the neighbour j) holds valid row numbers,
  -100000 ≤ j < 100000. Nothing is asked of the first row (the receiver i): an edge whose receiver is no row of
  the table is dropped by the per-node sum in both programs, so the differing messages of such edges are never
  read (AggrCongr.aggregate_congr), and a receiver that IS a row is a valid row number.

  How it is put together. The three frames are the generated ones (the reference's is its generated run with the
  result dropped). The kernel program's run with its result named is the launch theorem over the generated
  segments (KernelRun); each region's array after its write-backs is its network of the region's input arrays
  (MsgValue, UpdValue: block by block, then the cover); the host stretches give the input arrays as terms of the
  launch memory (HostSide), so the result is one function of the arguments (KernelValue). The reference's run
  ends at its last stage, which is the same function (Bridge: the two networks read through the generated
  stage lemmas, RefNets; the guarded gathers row by row, TakeRows; the index range out of the precondition,
  PreRange).
-/
import proofs.«425533_j65094524339280_1_alg».proof.Defs
import proofs.«425533_j65094524339280_1_alg».proof.Proof.Gen.Kernel
import proofs.«425533_j65094524339280_1_alg».proof.Proof.Gen.Kernel.Skeleton
import proofs.«425533_j65094524339280_1_alg».proof.Proof.Gen.Kernel.Launch
import proofs.«425533_j65094524339280_1_alg».proof.Proof.Gen.Kernel.Points
import proofs.«425533_j65094524339280_1_alg».proof.Proof.Gen.Kernel.Frame
import proofs.«425533_j65094524339280_1_alg».proof.Proof.Gen.KernelIdeal
import proofs.«425533_j65094524339280_1_alg».proof.Proof.Gen.KernelIdeal.Skeleton
import proofs.«425533_j65094524339280_1_alg».proof.Proof.Gen.KernelIdeal.Launch
import proofs.«425533_j65094524339280_1_alg».proof.Proof.Gen.KernelIdeal.Points
import proofs.«425533_j65094524339280_1_alg».proof.Proof.Gen.KernelIdeal.Frame
import proofs.«425533_j65094524339280_1_alg».proof.Proof.Gen.ReferenceIdeal
import proofs.«425533_j65094524339280_1_alg».proof.Proof.Gen.ReferenceIdeal.Run
import proofs.«425533_j65094524339280_1_alg».proof.Proof.Gen.ReferenceIdeal.Read
import proofs.«425533_j65094524339280_1_alg».proof.Proof.Gen.Pre_finite_inputs
import proofs.«425533_j65094524339280_1_alg».proof.Proof.KernelRun
import proofs.«425533_j65094524339280_1_alg».proof.Proof.KernelValue
import proofs.«425533_j65094524339280_1_alg».proof.Proof.Bridge
import proofs.«425533_j65094524339280_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both programs end at one function of the argument arrays: the kernel program at `KernelValue.value` (the
    launch, the regions' arrays, the host stretches), the reference at its last stage, which is that function
    when the neighbour row of the edge list holds valid row numbers (the bridge; the precondition gives the range). -/
theorem algebraic : Cert.algebraic_KernelIdeal_ReferenceIdeal := by
  intro m ρ m' ρ' hpre hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_value m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq]
    obtain ⟨h0, h1, h2, h3, h4, h5, h6, h7, h8, h9, h10⟩ := hagree c
    rw [h0, h1, h2, h3, h4, h5, h6, h7, h8, h9, h10]
    exact (Cert.Bridge.kernel_eq_reference _ _ _ _ _ _ _ _ _ _ _ (fun e => Cert.PreRange.idx1_range (hpre c) e)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
